-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x1024x64 : Shape := ⟨3, ![1, 1024, 64]⟩
abbrev S512x1 : Shape := ⟨2, ![512, 1]⟩
abbrev S512x64 : Shape := ⟨2, ![512, 64]⟩
abbrev S1024x64 : Shape := ⟨2, ![1024, 64]⟩
abbrev S512x1024 : Shape := ⟨2, ![512, 1024]⟩
abbrev S512 : Shape := ⟨1, ![512]⟩

abbrev nBuf : Space → Nat
  | .hbm => 8
  | .vmem => 11
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x512x64, .f32⟩
  | .local _ .vmem, ⟨7, _⟩ => ⟨S1x512x64, .f32⟩
  | .local _ .vmem, ⟨8, _⟩ => ⟨S512x1, .f32⟩
  | .local _ .vmem, ⟨9, _⟩ => ⟨S512x1, .f32⟩
  | .local _ .vmem, ⟨10, _⟩ => ⟨S512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 2], ![false, false, false]⟩

def k0_cond2 (i : grid0.Coords) : BitVec 1 :=
  let arg2 : BitVec 32 := BitVec.ofNat 32 (i 2).val
  let c1_i32 : BitVec 32 := 1#32
  let v45 : BitVec 1 := Scalar.cmpi .eq arg2 c1_i32
  let v46 : BitVec 32 := Scalar.extui v45
  let c0_i32_27 : BitVec 32 := 0#32
  let v47 : BitVec 1 := Scalar.cmpi .ne v46 c0_i32_27
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x16x2048x64_S32x2048x64 : S2x16x2048x64.ShapeCasts S32x2048x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S512x1024_S512 : S512x1024.Reduces [1] S512
  shapeCasts_S512_S512x1 : S512.ShapeCasts S512x1
  broadcasts_S512x1_S512x1024 : S512x1.Broadcasts S512x1024
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S32x2048x64.size a
  hwx0_1 : ∀ i : grid0.Coords, EltTy.bits .f32 = 32 ∨ (Rect.block (s := S32x2048x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x2048x64.size a
  hwx0_2 : ∀ i : grid0.Coords, EltTy.bits .f32 = 32 ∨ (Rect.block (s := S32x2048x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.TwoStep.lean ====
/-
  What two consecutive grid points — the first and the second key block of one query block — leave behind, as
  terms over the body's pure payloads: after the first point the three carried buffers (running maximum,
  denominator, numerator), after the second the output block.
-/
import proofs.«420729_j12979391169218_3_alg».proof.Proof.Gen.KernelIdeal.Skeleton

noncomputable section

namespace Cert.KernelIdeal.Hand

open Idealize.ShloMosaic Cert.KernelIdeal Cert.KernelIdeal.Gen

variable {F : FTy → Type} [FloatOps F]

/-- The running maximum after the first point: the reset value `-∞` against the block's row maxima. -/
def firstMax (y0 : Vec F S1x512x64 .f32) (y1 : Vec F S1x1024x64 .f32) : Vec F S512x1 .f32 :=
  k0_pay2 (k0_pay8 y0 y1 (k0_pay4 (F := F)))

/-- The running denominator after the first point, from the reset values. -/
def firstDen (y0 : Vec F S1x512x64 .f32) (y1 : Vec F S1x1024x64 .f32) : Vec F S512x1 .f32 :=
  k0_pay11 y0 y1 (k0_pay4 (F := F)) (k0_pay4 (F := F)) (k0_pay5 (F := F))

/-- The running numerator after the first point, from the reset values. -/
def firstNum (y0 : Vec F S1x512x64 .f32) (y1 y2 : Vec F S1x1024x64 .f32) : Vec F S512x64 .f32 :=
  k0_pay1 (k0_pay9 y0 y1 (k0_pay4 (F := F)) (k0_pay4 (F := F))) (k0_pay12 y0 y1 (k0_pay4 (F := F))) y2 (k0_pay6 (F := F))

/-- The output block the second point stores, from its input blocks and the carried buffers it found. -/
def secondOut (x0 : Vec F S1x512x64 .f32) (x1 x2 : Vec F S1x1024x64 .f32) (xs0 xs1 : Vec F S512x1 .f32)
    (xs2 : Vec F S512x64 .f32) : Vec F S1x512x64 .f32 :=
  k0_pay3 (k0_pay1 (k0_pay9 x0 x1 xs0 xs0) (k0_pay12 x0 x1 xs0) x2 xs2) (k0_pay11 x0 x1 xs0 xs0 xs1)

/-- Both points together: the first point's input blocks `y`, the second's `x`. -/
def twoStep (y0 : Vec F S1x512x64 .f32) (y1 y2 : Vec F S1x1024x64 .f32) (x0 : Vec F S1x512x64 .f32)
    (x1 x2 : Vec F S1x1024x64 .f32) : Vec F S1x512x64 .f32 :=
  secondOut x0 x1 x2 (firstMax y0 y1) (firstDen y0 y1) (firstNum y0 y1 y2)

end Cert.KernelIdeal.Hand

end
-- ==== Proof.Names.lean ====
/-
  Names shared by the modules that read the kernel's frame run: the point before a grid point, the three input
  blocks at a point under their literal shapes, and a grid point's coordinates. The grid is (32, 4, 2) in row-major
  order, so point `t` is batch-head `t / 8` (batch `t / 128`, head `(t / 8) % 16`), query block `(t / 2) % 4`, key
  block `t % 2`.
-/
import proofs.«420729_j12979391169218_3_alg».proof.Proof.Gen.KernelIdeal.Frame
import proofs.«420729_j12979391169218_3_alg».proof.Proof.TwoStep

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

theorem N256 : cfg0.N = 256 := N_0

/-- The grid point before `t` (itself at the first point). -/
def prev (t : Fin cfg0.N) : Fin cfg0.N := ⟨t.val - 1, Nat.lt_of_le_of_lt (Nat.sub_le _ _) t.isLt⟩

theorem prev_val (t : Fin cfg0.N) : (prev t).val = t.val - 1 := rfl

/-- The query block at point `t`: 512 rows of 64 features. -/
abbrev qblk (c : Dev nD) (t : Fin cfg0.N) : Vec F S1x512x64 .f32 := iblk m c 0 t
/-- The key block at point `t`: 1024 rows of 64 features. -/
abbrev kblk (c : Dev nD) (t : Fin cfg0.N) : Vec F S1x1024x64 .f32 := iblk m c 1 t
/-- The value block at point `t`: 1024 rows of 64 features. -/
abbrev vblk (c : Dev nD) (t : Fin cfg0.N) : Vec F S1x1024x64 .f32 := iblk m c 2 t

/-- The batch of point `t`. -/
def bOf (t : Fin cfg0.N) : Fin 2 := ⟨t.val / 128, by have h : t.val < 256 := lt_of_lt_of_eq t.isLt N256; omega⟩
/-- The head of point `t`. -/
def hOf (t : Fin cfg0.N) : Fin 16 := ⟨(t.val / 8) % 16, by omega⟩
/-- Row `r` of point `t`'s query block, as a position among the 2048. -/
def qRow (t : Fin cfg0.N) (r : Fin 512) : Fin 2048 := ⟨((t.val / 2) % 4) * 512 + r.val, by have := r.isLt; omega⟩
/-- Row `j` of point `t`'s key (and value) block, as a position among the 2048. -/
def kRow (t : Fin cfg0.N) (j : Fin 1024) : Fin 2048 := ⟨(t.val % 2) * 1024 + j.val, by have := j.isLt; omega⟩

end Cert.KernelIdeal.Hand

end
-- ==== Proof.Pieces.lean ====
/-
  What the kernel's frame run found at a point of the second kind (key block 1): the output block is the two-point
  term over the input blocks of that point and of the point before it.

  The pieces. At a point of the first kind (key block 0) each of the three carried buffers is stored twice through
  the whole-buffer rectangle at zero offsets — the reset, then the update — so it ends at the later store's payload,
  whose loads of the carried buffers read the reset values back. At a point of the second kind the output block is
  stored once through its whole rectangle, the payload reading the numerator and the denominator back from the stores
  the same point has just made over the carried buffers it found. Reading each payload's loads as the contents they
  read gives the four terms of the two-step description; the point before an odd point is even, which joins them.
-/
import proofs.«420729_j12979391169218_3_alg».proof.Proof.Names
import Idealize.ShloMosaic.Lib.Pipeline.Value
import Idealize.ShloMosaic.Lib.Tactic

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The zero offsets of a two-axis rectangle, as the constant function. -/
theorem offs2_zero : (![0, 0] : Fin 2 → Nat) = fun _ => 0 := funext fun a => by fin_cases a <;> rfl

/-- The zero offsets of a three-axis rectangle, as the constant function. -/
theorem offs3_zero : (![0, 0, 0] : Fin 3 → Nat) = fun _ => 0 := funext fun a => by fin_cases a <;> rfl

/-- After an even point the running maximum is the reset value `-∞` against the block's row maxima: the buffer is
    stored twice (the reset, then the update), the later store covers it, and the update's loads read the reset
    value back. -/
theorem firstMax_found (c : Dev nD) (i : grid0.Coords) (a3 : Memref sig .tc .vmem S1x512x64 .f32) (h3 : a3.IsWhole)
    (a4 : Memref sig .tc .vmem S1x1024x64 .f32) (h4 : a4.IsWhole) (a5 : Memref sig .tc .vmem S1x1024x64 .f32) (h5 : a5.IsWhole)
    (a6 : Memref sig .tc .vmem S1x512x64 .f32) (h6 : a6.IsWhole) (a7 : Memref sig .tc .vmem S512x1 .f32) (h7 : a7.IsWhole)
    (a8 : Memref sig .tc .vmem S512x1 .f32) (h8 : a8.IsWhole) (a9 : Memref sig .tc .vmem S512x64 .f32) (h9 : a9.IsWhole)
    (hc0 : cond0_0 i) (hc1 : ¬cond0_1 i) (x0 : Vec F S1x512x64 .f32) (x1 x2 : Vec F S1x1024x64 .f32) :
    sout0_A_0 c i a3 h3 a4 h4 a5 h5 a6 h6 a7 h7 a8 h8 a9 h9 hc0 hc1 x0 x1 x2 = firstMax x0 x1 := by
  unfold sout0_A_0
  rw [View.read_writes_eq_canon _ _ _ (scover0_A_0 c i a3 h3 a4 h4 a5 h5 a6 h6 a7 h7 a8 h8 a9 h9 hc0 hc1 x0 x1 x2)]
  unfold kernelRun0_A
  dsimp only
  sl_unfold_words
  rw [View.canon_cons_unit_zero (S := S512x1) offs2_zero]
  unfold firstMax
  simp only [View.readAt_eq_ld, h3.read_unread, h4.read_unread, h5.read_unread, h7.read_unread, h8.read_unread,
    h9.read_unread, View.ld_unit_zero (S := S1x512x64) offs3_zero, View.ld_unit_zero (S := S1x1024x64) offs3_zero,
    View.ld_unit_zero (S := S512x1) offs2_zero, View.ld_unit_zero (S := S512x64) offs2_zero,
    View.readCov_unit_zero (S := S512x1) _ offs2_zero, View.readCov_unit_zero (S := S512x64) _ offs2_zero, shapeCast_self]

/-- After an even point the running denominator is the update of the reset values (maximum `-∞`, denominator `0`). -/
theorem firstDen_found (c : Dev nD) (i : grid0.Coords) (a3 : Memref sig .tc .vmem S1x512x64 .f32) (h3 : a3.IsWhole)
    (a4 : Memref sig .tc .vmem S1x1024x64 .f32) (h4 : a4.IsWhole) (a5 : Memref sig .tc .vmem S1x1024x64 .f32) (h5 : a5.IsWhole)
    (a6 : Memref sig .tc .vmem S1x512x64 .f32) (h6 : a6.IsWhole) (a7 : Memref sig .tc .vmem S512x1 .f32) (h7 : a7.IsWhole)
    (a8 : Memref sig .tc .vmem S512x1 .f32) (h8 : a8.IsWhole) (a9 : Memref sig .tc .vmem S512x64 .f32) (h9 : a9.IsWhole)
    (hc0 : cond0_0 i) (hc1 : ¬cond0_1 i) (x0 : Vec F S1x512x64 .f32) (x1 x2 : Vec F S1x1024x64 .f32) :
    sout0_A_1 c i a3 h3 a4 h4 a5 h5 a6 h6 a7 h7 a8 h8 a9 h9 hc0 hc1 x0 x1 x2 = firstDen x0 x1 := by
  unfold sout0_A_1
  rw [View.read_writes_eq_canon _ _ _ (scover0_A_1 c i a3 h3 a4 h4 a5 h5 a6 h6 a7 h7 a8 h8 a9 h9 hc0 hc1 x0 x1 x2)]
  unfold kernelRun0_A
  dsimp only
  sl_unfold_words
  rw [View.canon_cons_unit_zero (S := S512x1) offs2_zero]
  unfold firstDen
  simp only [View.readAt_eq_ld, h3.read_unread, h4.read_unread, h5.read_unread, h7.read_unread, h8.read_unread,
    h9.read_unread, View.ld_unit_zero (S := S1x512x64) offs3_zero, View.ld_unit_zero (S := S1x1024x64) offs3_zero,
    View.ld_unit_zero (S := S512x1) offs2_zero, View.ld_unit_zero (S := S512x64) offs2_zero,
    View.readCov_unit_zero (S := S512x1) _ offs2_zero, View.readCov_unit_zero (S := S512x64) _ offs2_zero, shapeCast_self]

/-- After an even point the running numerator is the update of the reset values (maximum `-∞`, numerator `0`). -/
theorem firstNum_found (c : Dev nD) (i : grid0.Coords) (a3 : Memref sig .tc .vmem S1x512x64 .f32) (h3 : a3.IsWhole)
    (a4 : Memref sig .tc .vmem S1x1024x64 .f32) (h4 : a4.IsWhole) (a5 : Memref sig .tc .vmem S1x1024x64 .f32) (h5 : a5.IsWhole)
    (a6 : Memref sig .tc .vmem S1x512x64 .f32) (h6 : a6.IsWhole) (a7 : Memref sig .tc .vmem S512x1 .f32) (h7 : a7.IsWhole)
    (a8 : Memref sig .tc .vmem S512x1 .f32) (h8 : a8.IsWhole) (a9 : Memref sig .tc .vmem S512x64 .f32) (h9 : a9.IsWhole)
    (hc0 : cond0_0 i) (hc1 : ¬cond0_1 i) (x0 : Vec F S1x512x64 .f32) (x1 x2 : Vec F S1x1024x64 .f32) :
    sout0_A_2 c i a3 h3 a4 h4 a5 h5 a6 h6 a7 h7 a8 h8 a9 h9 hc0 hc1 x0 x1 x2 = firstNum x0 x1 x2 := by
  unfold sout0_A_2
  rw [View.read_writes_eq_canon _ _ _ (scover0_A_2 c i a3 h3 a4 h4 a5 h5 a6 h6 a7 h7 a8 h8 a9 h9 hc0 hc1 x0 x1 x2)]
  unfold kernelRun0_A
  dsimp only
  sl_unfold_words
  rw [View.canon_cons_unit_zero (S := S512x64) offs2_zero]
  unfold firstNum
  simp only [View.readAt_eq_ld, h3.read_unread, h4.read_unread, h5.read_unread, h7.read_unread, h8.read_unread,
    h9.read_unread, View.ld_unit_zero (S := S1x512x64) offs3_zero, View.ld_unit_zero (S := S1x1024x64) offs3_zero,
    View.ld_unit_zero (S := S512x1) offs2_zero, View.ld_unit_zero (S := S512x64) offs2_zero,
    View.readCov_unit_zero (S := S512x1) _ offs2_zero, View.readCov_unit_zero (S := S512x64) _ offs2_zero, shapeCast_self]

/-- At an odd point the one store into the output block covers it; its payload divides the numerator by the
    denominator, both read back from the stores this same point made over the carried buffers it found. -/
theorem secondOut_found (c : Dev nD) (i : grid0.Coords) (a3 : Memref sig .tc .vmem S1x512x64 .f32) (h3 : a3.IsWhole)
    (a4 : Memref sig .tc .vmem S1x1024x64 .f32) (h4 : a4.IsWhole) (a5 : Memref sig .tc .vmem S1x1024x64 .f32) (h5 : a5.IsWhole)
    (a6 : Memref sig .tc .vmem S1x512x64 .f32) (h6 : a6.IsWhole) (a7 : Memref sig .tc .vmem S512x1 .f32) (h7 : a7.IsWhole)
    (a8 : Memref sig .tc .vmem S512x1 .f32) (h8 : a8.IsWhole) (a9 : Memref sig .tc .vmem S512x64 .f32) (h9 : a9.IsWhole)
    (hc0 : ¬cond0_0 i) (hc1 : cond0_1 i) (x0 : Vec F S1x512x64 .f32) (x1 x2 : Vec F S1x1024x64 .f32)
    (xs0 xs1 : Vec F S512x1 .f32) (xs2 : Vec F S512x64 .f32) :
    out0_B_3 c i a3 h3 a4 h4 a5 h5 a6 h6 a7 h7 a8 h8 a9 h9 hc0 hc1 x0 x1 x2 xs0 xs1 xs2 = secondOut x0 x1 x2 xs0 xs1 xs2 := by
  unfold out0_B_3
  rw [View.read_writes_eq_canon _ _ _ (cover0_B_3 c i a3 h3 a4 h4 a5 h5 a6 h6 a7 h7 a8 h8 a9 h9 hc0 hc1 x0 x1 x2 xs0 xs1 xs2)]
  unfold kernelRun0_B
  dsimp only
  sl_unfold_words
  rw [View.canon_unit_zero (S := S1x512x64) offs3_zero]
  unfold secondOut
  simp only [View.readAt_eq_ld, h3.read_unread, h4.read_unread, h5.read_unread, h7.read_unread, h8.read_unread,
    h9.read_unread, View.ld_unit_zero (S := S1x512x64) offs3_zero, View.ld_unit_zero (S := S1x1024x64) offs3_zero,
    View.ld_unit_zero (S := S512x1) offs2_zero, View.ld_unit_zero (S := S512x64) offs2_zero,
    View.readCov_unit_zero (S := S512x1) _ offs2_zero, View.readCov_unit_zero (S := S512x64) _ offs2_zero, shapeCast_self]

/-- At an odd point the output's staging buffer ends at the two-point term of the blocks at the point before and at
    the point itself. -/
theorem outsAt_odd (c : Dev nD) (t : Fin cfg0.N) (h1 : t.val % 2 = 1) :
    (outsAt0 m c t.val t.isLt).1
      = twoStep (qblk m c (prev t)) (kblk m c (prev t)) (vblk m c (prev t)) (qblk m c t) (kblk m c t) (vblk m c t) := by
  have hN : cfg0.N = 256 := N256
  have h0 : ¬t.val % 2 = 0 := by omega
  -- the point before an odd point is even
  have hA0 : (prev t).val % 2 = 0 := by rw [prev_val]; omega
  have hA1 : ¬(prev t).val % 2 = 1 := by rw [prev_val]; omega
  -- the point before, under its two spellings
  have hp : outsAt0 m c (t.val - 1) (Nat.lt_of_le_of_lt (Nat.sub_le _ _) t.isLt)
      = outsAt0 m c (prev t).val (prev t).isLt := rfl
  -- the odd point's contents over what the even point before left
  rw [outsAt0_B m c t h0 h1]
  dsimp only
  rw [hp, outsAt0_A m c (prev t) hA0 hA1]
  dsimp only
  -- the three carried buffers after the even point, then the output block of the odd point
  rw [firstMax_found c (grid0.coords (prev t)) (ms0_0 (prev t)) (hs0_0 (prev t)) (ms0_1 (prev t)) (hs0_1 (prev t)) (ms0_2 (prev t)) (hs0_2 (prev t)) (ms0_3 (prev t)) (hs0_3 (prev t))
      scM0_0 (Memref.isWhole_whole cc0_scratch0) scM0_1 (Memref.isWhole_whole cc0_scratch1) scM0_2 (Memref.isWhole_whole cc0_scratch2)
      ((hcond0_0 (prev t)).mpr hA0) (fun h => hA1 ((hcond0_1 (prev t)).mp h))
      (iblk m c 0 (prev t)) (iblk m c 1 (prev t)) (iblk m c 2 (prev t)),
    firstDen_found c (grid0.coords (prev t)) (ms0_0 (prev t)) (hs0_0 (prev t)) (ms0_1 (prev t)) (hs0_1 (prev t)) (ms0_2 (prev t)) (hs0_2 (prev t)) (ms0_3 (prev t)) (hs0_3 (prev t))
      scM0_0 (Memref.isWhole_whole cc0_scratch0) scM0_1 (Memref.isWhole_whole cc0_scratch1) scM0_2 (Memref.isWhole_whole cc0_scratch2)
      ((hcond0_0 (prev t)).mpr hA0) (fun h => hA1 ((hcond0_1 (prev t)).mp h))
      (iblk m c 0 (prev t)) (iblk m c 1 (prev t)) (iblk m c 2 (prev t)),
    firstNum_found c (grid0.coords (prev t)) (ms0_0 (prev t)) (hs0_0 (prev t)) (ms0_1 (prev t)) (hs0_1 (prev t)) (ms0_2 (prev t)) (hs0_2 (prev t)) (ms0_3 (prev t)) (hs0_3 (prev t))
      scM0_0 (Memref.isWhole_whole cc0_scratch0) scM0_1 (Memref.isWhole_whole cc0_scratch1) scM0_2 (Memref.isWhole_whole cc0_scratch2)
      ((hcond0_0 (prev t)).mpr hA0) (fun h => hA1 ((hcond0_1 (prev t)).mp h))
      (iblk m c 0 (prev t)) (iblk m c 1 (prev t)) (iblk m c 2 (prev t)),
    secondOut_found c (grid0.coords t) (ms0_0 t) (hs0_0 t) (ms0_1 t) (hs0_1 t) (ms0_2 t) (hs0_2 t) (ms0_3 t) (hs0_3 t)
      scM0_0 (Memref.isWhole_whole cc0_scratch0) scM0_1 (Memref.isWhole_whole cc0_scratch1) scM0_2 (Memref.isWhole_whole cc0_scratch2)
      (fun h => h0 ((hcond0_0 t).mp h)) ((hcond0_1 t).mpr h1) (iblk m c 0 t) (iblk m c 1 t) (iblk m c 2 t)
      (firstMax (iblk m c 0 (prev t)) (iblk m c 1 (prev t)))
      (firstDen (iblk m c 0 (prev t)) (iblk m c 1 (prev t)))
      (firstNum (iblk m c 0 (prev t)) (iblk m c 1 (prev t)) (iblk m c 2 (prev t)))]
  rfl

end Cert.KernelIdeal.Hand

end
-- ==== Proof.Spec.lean ====
/-
  Scaled dot-product attention on ONE query row, written two ways over the extended reals.

  The blockwise way keeps, for the row, a running maximum `m`, a running denominator `l` and a running
  numerator `a` (one per output column), and visits the 2048 keys in two blocks of 1024: with the block's scores
  `s` and `m' = max m (max s)`, the new denominator is `exp (m - m') * l + ∑ exp (s - m')`, the new numerator
  `exp (m - m') * a + ∑ exp (s - m') * v`; it starts from `m = -∞`, `l = a = 0` and ends with `a / l`. The query is
  scaled by 1/8 BEFORE the products with the key.

  The whole way takes all 2048 scores at once, scales each product sum by `1 / √64` AFTER the contraction,
  subtracts their maximum, exponentiates, divides each weight by the sum of the weights, and only then
  contracts the weights with the value column.

  This module only NAMES the two (and the four-axis function the whole way defines); that they agree on
  finite inputs is the law of the sibling module.
-/
import Idealize.ShloMosaic.PureOps.Ideal
import Idealize.ShloMosaic.Lib.ValueIdx

noncomputable section

namespace Cert.Attn

open Idealize.ShloMosaic Idealize.ShloMosaic.ValueIdx

/-- The score of a query row against a key row, the query scaled by the word `0.125` first. -/
def kscore (q k : Fin 64 → EReal) : EReal :=
  ∑ e : Fin 64, (q e * Ideal.ofBits .f32 0x3E000000#32) * k e

/-- The score of a query row against a key row, the product sum scaled by `1 / √64` afterwards. -/
def rscore (q k : Fin 64 → EReal) : EReal :=
  (∑ e : Fin 64, q e * k e) * Ideal.div (Ideal.ofBits .f32 0x3F800000#32) (Ideal.sqrt (Ideal.ofBits .f32 0x42800000#32))

/-- The running maximum after a block of scores: the old one against the block's own maximum (a fold from `-∞`). -/
def newMax (m : EReal) (s : Fin 1024 → EReal) : EReal :=
  max m ((Finset.univ : Finset (Fin 1024)).fold max (Ideal.ofBits .f32 0xFF800000#32) s)

/-- The running denominator after a block: the old one rescaled to the new maximum, plus the block's weights. -/
def newDen (m l : EReal) (s : Fin 1024 → EReal) : EReal :=
  Ideal.exp (m - newMax m s) * l + ∑ j : Fin 1024, Ideal.exp (s j - newMax m s)

/-- The running numerator (one output column) after a block: the old one rescaled, plus the block's weighted values. -/
def newNum (m a : EReal) (s v : Fin 1024 → EReal) : EReal :=
  Ideal.exp (m - newMax m s) * a + ∑ j : Fin 1024, Ideal.exp (s j - newMax m s) * v j

/-- The blockwise result for one row and one output column: two blocks of scores `s0`, `s1` and of values `v0`, `v1`,
    from `m = -∞`, `l = a = 0`. -/
def online (s0 s1 v0 v1 : Fin 1024 → EReal) : EReal :=
  Ideal.div
    (newNum (newMax (Ideal.ofBits .f32 0xFF800000#32) s0)
      (newNum (Ideal.ofBits .f32 0xFF800000#32) (Ideal.ofBits .f32 0x00000000#32) s0 v0) s1 v1)
    (newDen (newMax (Ideal.ofBits .f32 0xFF800000#32) s0)
      (newDen (Ideal.ofBits .f32 0xFF800000#32) (Ideal.ofBits .f32 0x00000000#32) s0) s1)

/-- The maximum the whole way subtracts: `-∞` against the fold of `max` from `-∞` over all 2048 scores. -/
def wholeMax (p : Fin 2048 → EReal) : EReal :=
  max (Ideal.ofBits .f32 0xFF800000#32) ((Finset.univ : Finset (Fin 2048)).fold max (Ideal.ofBits .f32 0xFF800000#32) p)

/-- The whole-row result for one output column: each weight divided by the sum of the weights, then the contraction. -/
def whole (p v : Fin 2048 → EReal) : EReal :=
  ∑ k : Fin 2048,
    Ideal.div (Ideal.exp (p k - wholeMax p))
      (Ideal.ofBits .f32 0x00000000#32 + ∑ k' : Fin 2048, Ideal.exp (p k' - wholeMax p)) * v k

/-- Key `j` of the FIRST block of 1024, as one of the 2048 keys. -/
def lo (j : Fin 1024) : Fin 2048 := ⟨j.val, by have := j.isLt; omega⟩

/-- Key `j` of the SECOND block of 1024, as one of the 2048 keys. -/
def hi (j : Fin 1024) : Fin 2048 := ⟨1024 + j.val, by have := j.isLt; omega⟩

/-- The shape of the three inputs and of the result: batch, head, position, feature. -/
abbrev SQ : Shape := ⟨4, ![2, 16, 2048, 64]⟩

/-- The whole way at explicit coordinates: row `(b, h, q)` of `Q` against every row of `K` in the same batch and head,
    contracted with column `d` of `V`. -/
def attnAt (Q K V : SQ.Idx → EReal) (b : Fin 2) (h : Fin 16) (q : Fin 2048) (d : Fin 64) : EReal :=
  whole (fun k => rscore (fun e => Q (ix4 b h q e)) (fun e => K (ix4 b h k e))) (fun k => V (ix4 b h k d))

/-- Attention as ONE function of the three input arrays. -/
def attn (Q K V : SQ.Idx → EReal) : SQ.Idx → EReal :=
  fun i => attnAt Q K V (i 0) (i 1) (i 2) (i 3)

theorem attn_apply (Q K V : SQ.Idx → EReal) (b : Fin 2) (h : Fin 16) (q : Fin 2048) (d : Fin 64) :
    attn Q K V (ix4 b h q d) = attnAt Q K V b h q d := rfl

end Cert.Attn

end
-- ==== Proof.PayScore.lean ====
/-
  The kernel body's score tile and running maximum, read at an index at the ideal instance: entry (r, j) of the
  score tile is the sum over the 64 features of the scaled query row r against key row j; the new maximum of row r
  is the old one against the fold of max over that row of the tile.
-/
import proofs.«420729_j12979391169218_3_alg».proof.Proof.Gen.KernelIdeal.Skeleton
import proofs.«420729_j12979391169218_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-! ### The operand indices of the block product

The product contracts axis 1 of both operands and keeps axis 0 of both: at result index (r, j) and contraction
position q the left operand is read at (r, q) and the right at (j, q). One statement per operand axis. -/

/-- The left operand's kept axis 0 reads the result's axis 0. -/
theorem lhs_pay7_0 (i : S512x1024.Idx) (q : dot_S512x64_S1024x64_S512x1024_1_1_0_0_n_n.contr.Idx) :
    (dot_S512x64_S1024x64_S512x1024_1_1_0_0_n_n.lhsIdx i q 0).val = (i 0).val := by
  unfold DotDims.lhsIdx
  rw [dif_neg (show ¬(0 : Fin S512x64.rank) ∈ dot_S512x64_S1024x64_S512x1024_1_1_0_0_n_n.lhsBatch by decide), dif_pos (show (0 : Fin S512x64.rank) ∈ dot_S512x64_S1024x64_S512x1024_1_1_0_0_n_n.lhsNonContracting by decide)]
  rfl

/-- The left operand's contracted axis 1 reads the contraction position. -/
theorem lhs_pay7_1 (i : S512x1024.Idx) (q : dot_S512x64_S1024x64_S512x1024_1_1_0_0_n_n.contr.Idx) :
    (dot_S512x64_S1024x64_S512x1024_1_1_0_0_n_n.lhsIdx i q 1).val = (q ⟨0, by decide⟩).val :=
  dot_S512x64_S1024x64_S512x1024_1_1_0_0_n_n.lhsIdx_val_of_single rfl i q

/-- The right operand's kept axis 0 reads the result's axis 1. -/
theorem rhs_pay7_0 (i : S512x1024.Idx) (q : dot_S512x64_S1024x64_S512x1024_1_1_0_0_n_n.contr.Idx) :
    (dot_S512x64_S1024x64_S512x1024_1_1_0_0_n_n.rhsIdx i q 0).val = (i 1).val := by
  unfold DotDims.rhsIdx
  rw [dif_neg (show ¬(0 : Fin S1024x64.rank) ∈ dot_S512x64_S1024x64_S512x1024_1_1_0_0_n_n.rhsBatch by decide), dif_pos (show (0 : Fin S1024x64.rank) ∈ dot_S512x64_S1024x64_S512x1024_1_1_0_0_n_n.rhsNonContracting by decide)]
  rfl

/-- The right operand's contracted axis 1 reads the contraction position. -/
theorem rhs_pay7_1 (i : S512x1024.Idx) (q : dot_S512x64_S1024x64_S512x1024_1_1_0_0_n_n.contr.Idx) :
    (dot_S512x64_S1024x64_S512x1024_1_1_0_0_n_n.rhsIdx i q 1).val = (q ⟨0, by decide⟩).val :=
  dot_S512x64_S1024x64_S512x1024_1_1_0_0_n_n.rhsIdx_val_of_single rfl i q

/-- The block product into the zero splat, at (r, j): the sum over the 64 features of row r of the left block against
    row j of the right. The sum over the one-axis contraction index is re-indexed to the 64 features. -/
theorem score_apply (A : FVec Ideal S512x64 .bf16) (B : FVec Ideal S1024x64 .bf16) (r : Fin 512) (j : Fin 1024) :
    FloatOps.matmul dot_S512x64_S1024x64_S512x1024_1_1_0_0_n_n none A B (constant S512x1024 .f32 0x00000000#32) (ix2 r j)
      = ∑ e : Fin 64, A (ix2 r e) * B (ix2 j e) := by
  rw [Ideal.matmul_constant_zero_apply, ← Equiv.sum_comp (ValueIdx.contrEquiv1 dot_S512x64_S1024x64_S512x1024_1_1_0_0_n_n 64 rfl rfl).symm]
  refine Finset.sum_congr rfl fun k _ => ?_
  have hk := ValueIdx.contrEquiv1_symm_val dot_S512x64_S1024x64_S512x1024_1_1_0_0_n_n 64 rfl rfl k
  have el : dot_S512x64_S1024x64_S512x1024_1_1_0_0_n_n.lhsIdx (ix2 r j) ((ValueIdx.contrEquiv1 dot_S512x64_S1024x64_S512x1024_1_1_0_0_n_n 64 rfl rfl).symm k) = ix2 r k := funext fun a => Fin.ext (by
    match a with
    | ⟨0, _⟩ => exact lhs_pay7_0 _ _
    | ⟨1, _⟩ => exact (lhs_pay7_1 _ _).trans hk)
  have er : dot_S512x64_S1024x64_S512x1024_1_1_0_0_n_n.rhsIdx (ix2 r j) ((ValueIdx.contrEquiv1 dot_S512x64_S1024x64_S512x1024_1_1_0_0_n_n 64 rfl rfl).symm k) = ix2 j k := funext fun a => Fin.ext (by
    match a with
    | ⟨0, _⟩ => exact rhs_pay7_0 _ _
    | ⟨1, _⟩ => exact (rhs_pay7_1 _ _).trans hk)
  rw [el, er]

/-- Entry (r, j) of the score tile: query row r, scaled, against key row j. -/
theorem pay7_apply (x0 : Vec Ideal S1x512x64 .f32) (x1 : Vec Ideal S1x1024x64 .f32) (r : Fin 512) (j : Fin 1024) :
    k0_pay7 x0 x1 (ix2 r j)
      = Attn.kscore (fun e => x0 (ix3 (0 : Fin 1) r e)) (fun e => x1 (ix3 (0 : Fin 1) j e)) := by
  unfold k0_pay7
  refine (score_apply _ _ r j).trans ?_
  unfold Attn.kscore
  refine Finset.sum_congr rfl fun e _ => ?_
  -- a change of float format is the identity, the pointwise product is the product, the splat is constant:
  -- what remains is each block with its leading unit axis dropped, read at (r, e) and at (j, e)
  show (shapeCast S512x64 x0 shapeCasts_S1x512x64_S512x64 (ix2 r e) * Ideal.ofBits .f32 0x3E000000#32)
      * shapeCast S1024x64 x1 shapeCasts_S1x1024x64_S1024x64 (ix2 j e) = _
  rw [shapeCast_1ab_ab_apply, shapeCast_1ab_ab_apply]

/-- A vector of length a cast to a column reads, at (i, u), the vector at i, whatever the unit coordinate u: both
    sit at row-major position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The maximum over axis 1 of a tile, from minus infinity, kept as a column and taken against an old column, at
    row r: the old entry against the fold of max over the 1024 entries of row r. -/
theorem rowMax_apply (T : FVec Ideal S512x1024 .f32) (mp : Vec Ideal S512x1 .f32) (r : Fin 512) :
    maximumf mp (shapeCast S512x1 (multiReduction .maximumf [1] S512 T 0xFF800000#32 reduces_S512x1024_S512 (.inl rfl) rfl)
        shapeCasts_S512_S512x1) (ix2 r (0 : Fin 1))
      = Attn.newMax (mp (ix2 r (0 : Fin 1))) (fun j => T (ix2 r j)) := by
  unfold Attn.newMax
  show max (mp (ix2 r (0 : Fin 1))) _ = _
  refine congrArg (max (mp (ix2 r (0 : Fin 1)))) ?_
  refine (shapeCast_a_a1_apply _ shapeCasts_S512_S512x1 r (0 : Fin 1)).trans ?_
  refine (Ideal.multiReduction_maximumf_single T 0xFF800000#32 reduces_S512x1024_S512 (.inl rfl) rfl (ix1 r)).trans ?_
  -- the reduced axis has 1024 coordinates, and the reduced index r with k put back on axis 1 is (r, k)
  show (Finset.univ : Finset (Fin 1024)).fold max (Ideal.ofBits .f32 0xFF800000#32) (T ∘ reduces_S512x1024_S512.lift (ix1 r)) = _
  refine congrArg (fun f => (Finset.univ : Finset (Fin 1024)).fold max (Ideal.ofBits .f32 0xFF800000#32) f) (funext fun k => ?_)
  exact congrArg T (funext fun a => Fin.ext (by match a with | ⟨0, _⟩ => rfl | ⟨1, _⟩ => rfl))

/-- The new running maximum of row r: the old one against the row's maximum over the tile. -/
theorem pay8_apply (x0 : Vec Ideal S1x512x64 .f32) (x1 : Vec Ideal S1x1024x64 .f32) (mp : Vec Ideal S512x1 .f32)
    (r : Fin 512) :
    k0_pay8 x0 x1 mp (ix2 r (0 : Fin 1))
      = Attn.newMax (mp (ix2 r (0 : Fin 1))) (fun j => k0_pay7 x0 x1 (ix2 r j)) := by
  unfold k0_pay8
  exact rowMax_apply (k0_pay7 x0 x1) mp r

end Cert.KernelIdeal.Hand

end
-- ==== Proof.PayStep.lean ====
/-
  The rest of the kernel body's arithmetic read at an index at the ideal instance — the rescaling factor, the
  weights, the new denominator and numerator, the final quotient — and, from these, what two consecutive points
  leave in the output block: the blockwise attention row of the specification.
-/
import proofs.«420729_j12979391169218_3_alg».proof.Proof.PayScore
import proofs.«420729_j12979391169218_3_alg».proof.Proof.TwoStep

noncomputable section

namespace Cert.KernelIdeal.Hand

open Idealize.ShloMosaic Idealize.ShloMosaic.ValueIdx Cert.KernelIdeal Cert.KernelIdeal.Gen

/-! ## Two layout readings: a column spread over a matrix, a vector stood up as a column -/

/-- A column `[a, 1]` broadcast to `[a, b]` reads, at `(p, c)`, the column's entry of row `p`: the unit axis reads
    `0`, the other axis its own coordinate. -/
theorem broadcastTo_colToMat_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`: both sit at row-major
    position `i`. -/
theorem shapeCast_vecToCol_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The pointwise payloads -/

/-- The rescaling factor of row r: the exponential of the old maximum `mq` less the new one (difference and
    exponential are taken entry by entry). -/
theorem pay9_apply (x0 : Vec Ideal S1x512x64 .f32) (x1 : Vec Ideal S1x1024x64 .f32) (mp mq : Vec Ideal S512x1 .f32)
    (r : Fin 512) :
    k0_pay9 x0 x1 mp mq (ix2 r (0 : Fin 1))
      = Ideal.exp (mq (ix2 r (0 : Fin 1)) - k0_pay8 x0 x1 mp (ix2 r (0 : Fin 1))) := rfl

/-- The weight at (r, j): the exponential of the score less the new maximum of row r — the column of maxima is
    spread over the 1024 keys, so entry (r, j) of it is the column's entry of row r. -/
theorem pay10_apply (x0 : Vec Ideal S1x512x64 .f32) (x1 : Vec Ideal S1x1024x64 .f32) (mp : Vec Ideal S512x1 .f32)
    (r : Fin 512) (j : Fin 1024) :
    k0_pay10 x0 x1 mp (ix2 r j)
      = Ideal.exp (k0_pay7 x0 x1 (ix2 r j) - k0_pay8 x0 x1 mp (ix2 r (0 : Fin 1))) := by
  unfold k0_pay10
  exact congrArg (fun t => Ideal.exp (k0_pay7 x0 x1 (ix2 r j) - t))
    (broadcastTo_colToMat_apply (k0_pay8 x0 x1 mp) broadcasts_S512x1_S512x1024 r j)

/-- The weights narrowed to sixteen bits are the weights: a change of format is the identity on extended reals. -/
theorem pay12_eq (x0 : Vec Ideal S1x512x64 .f32) (x1 : Vec Ideal S1x1024x64 .f32) (mp : Vec Ideal S512x1 .f32) :
    k0_pay12 x0 x1 mp = k0_pay10 x0 x1 mp := rfl

/-- The stored maximum is the computed one: a cast to the same shape is the identity. -/
theorem pay2_eq (v : FVec Ideal S512x1 .f32) : k0_pay2 v = v := shapeCast_self v _

/-- The reset maximum is the word of minus infinity at every entry. -/
theorem pay4_apply (i : S512x1.Idx) : k0_pay4 (F := Ideal) i = Ideal.ofBits .f32 0xFF800000#32 := by
  unfold k0_pay4
  rw [shapeCast_self]
  rfl

/-- The reset denominator is the word of zero at every entry. -/
theorem pay5_apply (i : S512x1.Idx) : k0_pay5 (F := Ideal) i = Ideal.ofBits .f32 0x00000000#32 := by
  unfold k0_pay5
  rw [shapeCast_self]
  rfl

/-- The reset numerator is the word of zero at every entry. -/
theorem pay6_apply (i : S512x64.Idx) : k0_pay6 (F := Ideal) i = Ideal.ofBits .f32 0x00000000#32 := by
  unfold k0_pay6
  rw [shapeCast_self]
  rfl

/-- Entry (0, r, d) of the output block: the numerator at (r, d) divided by the denominator of row r — the quotient
    is taken entry by entry against the denominator column spread over the 64 output columns, and the leading unit
    axis is added afterwards. -/
theorem pay3_apply (acc : Vec Ideal S512x64 .f32) (l : Vec Ideal S512x1 .f32) (r : Fin 512) (d : Fin 64) :
    k0_pay3 acc l (ix3 (0 : Fin 1) r d) = Ideal.div (acc (ix2 r d)) (l (ix2 r (0 : Fin 1))) := by
  unfold k0_pay3
  refine (shapeCast_ab_1ab_apply _ shapeCasts_S512x64_S1x512x64 (0 : Fin 1) r d).trans ?_
  exact congrArg (fun t => Ideal.div (acc (ix2 r d)) t)
    (broadcastTo_colToMat_apply l broadcasts_S512x1_S512x64 r d)

/-! ## The new denominator: a sum over the key axis -/

/-- The new denominator of row r: the old one `l` rescaled, plus the sum of the row's 1024 weights — the sum over
    axis 1 at index r runs over the entries (r, j), and the vector of sums stood up as a column reads r at (r, 0). -/
theorem pay11_apply (x0 : Vec Ideal S1x512x64 .f32) (x1 : Vec Ideal S1x1024x64 .f32) (mp mq l : Vec Ideal S512x1 .f32)
    (r : Fin 512) :
    k0_pay11 x0 x1 mp mq l (ix2 r (0 : Fin 1))
      = k0_pay9 x0 x1 mp mq (ix2 r (0 : Fin 1)) * l (ix2 r (0 : Fin 1))
          + ∑ j : Fin 1024, k0_pay10 x0 x1 mp (ix2 r j) := by
  unfold k0_pay11
  rw [shapeCast_self]
  refine congrArg (fun t => k0_pay9 x0 x1 mp mq (ix2 r (0 : Fin 1)) * l (ix2 r (0 : Fin 1)) + t) ?_
  refine (shapeCast_vecToCol_apply _ shapeCasts_S512_S512x1 r (0 : Fin 1)).trans ?_
  refine (Ideal.multiReduction_add_single (k0_pay10 x0 x1 mp) 0x00000000#32 reduces_S512x1024_S512
    (.inl rfl) rfl (ix1 r)).trans ?_
  exact Finset.sum_congr rfl fun k _ => congrArg (k0_pay10 x0 x1 mp) (funext fun a => by
    match a with
    | ⟨0, _⟩ => rfl
    | ⟨1, _⟩ => rfl)

/-! ## The new numerator: the weights contracted with the value block -/

/-- The weight tile's row coordinate is the output's row coordinate. -/
theorem lhs_pay1_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
/-- The weight tile's key coordinate is the contraction coordinate. -/
theorem lhs_pay1_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
/-- The value block's key coordinate is the contraction coordinate. -/
theorem rhs_pay1_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
/-- The value block's column coordinate is the output's column coordinate. -/
theorem rhs_pay1_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- Entry (r, d) of the product of a weight tile with a value block, into the zero splat: the sum over the 1024 keys
    of the weight at (r, j) times the value at (j, d) — the one-axis contraction index is its coordinate. -/
theorem weighted_apply (P : FVec Ideal S512x1024 .bf16) (V : FVec Ideal S1024x64 .bf16) (r : Fin 512) (d : Fin 64) :
    matmul dot_S512x1024_S1024x64_S512x64_1_0_0_1_n_n none P V (constant S512x64 .f32 0x00000000#32) (ix2 r d)
      = ∑ j : Fin 1024, P (ix2 r j) * V (ix2 j d) := by
  refine (Ideal.matmul_constant_zero_apply dot_S512x1024_S1024x64_S512x64_1_0_0_1_n_n none P V (ix2 r d)).trans ?_
  rw [← Equiv.sum_comp (ValueIdx.contrEquiv1 dot_S512x1024_S1024x64_S512x64_1_0_0_1_n_n 1024 rfl rfl).symm]
  refine Finset.sum_congr rfl fun k _ => ?_
  have hk := ValueIdx.contrEquiv1_symm_val dot_S512x1024_S1024x64_S512x64_1_0_0_1_n_n 1024 rfl rfl k
  have el : dot_S512x1024_S1024x64_S512x64_1_0_0_1_n_n.lhsIdx (ix2 r d) ((ValueIdx.contrEquiv1 dot_S512x1024_S1024x64_S512x64_1_0_0_1_n_n 1024 rfl rfl).symm k) = ix2 r k := funext fun a => Fin.ext (by
    match a with
    | ⟨0, _⟩ => exact lhs_pay1_0 _ _
    | ⟨1, _⟩ => exact (lhs_pay1_1 _ _).trans hk)
  have er : dot_S512x1024_S1024x64_S512x64_1_0_0_1_n_n.rhsIdx (ix2 r d) ((ValueIdx.contrEquiv1 dot_S512x1024_S1024x64_S512x64_1_0_0_1_n_n 1024 rfl rfl).symm k) = ix2 k d := funext fun a => Fin.ext (by
    match a with
    | ⟨0, _⟩ => exact (rhs_pay1_0 _ _).trans hk
    | ⟨1, _⟩ => exact rhs_pay1_1 _ _)
  rw [el, er]

/-- The new numerator at (r, d): the old one `acc` rescaled by the factor `a` of row r, plus the sum over the 1024
    keys of the weight at (r, j) times the value at (0, j, d) — the factor column is spread over the 64 output columns,
    the value block loses its leading unit axis, and narrowing it to sixteen bits is the identity. -/
theorem pay1_apply (a : FVec Ideal S512x1 .f32) (p : FVec Ideal S512x1024 .bf16) (x2 : Vec Ideal S1x1024x64 .f32)
    (acc : Vec Ideal S512x64 .f32) (r : Fin 512) (d : Fin 64) :
    k0_pay1 a p x2 acc (ix2 r d)
      = a (ix2 r (0 : Fin 1)) * acc (ix2 r d) + ∑ j : Fin 1024, p (ix2 r j) * x2 (ix3 (0 : Fin 1) j d) := by
  unfold k0_pay1
  rw [shapeCast_self]
  show broadcastTo S512x64 a broadcasts_S512x1_S512x64 (ix2 r d) * acc (ix2 r d)
      + matmul dot_S512x1024_S1024x64_S512x64_1_0_0_1_n_n none p (truncf .bf16 (shapeCast S1024x64 x2 shapeCasts_S1x1024x64_S1024x64) bitsLt_bf16_f32)
          (constant S512x64 .f32 0x00000000#32) (ix2 r d) = _
  rw [broadcastTo_colToMat_apply, weighted_apply]
  refine congrArg (fun t => a (ix2 r (0 : Fin 1)) * acc (ix2 r d) + t) (Finset.sum_congr rfl fun j _ => ?_)
  exact congrArg (fun t => p (ix2 r j) * t) (shapeCast_1ab_ab_apply x2 shapeCasts_S1x1024x64_S1024x64 j d)

/-! ## Two points -/

/-- Entry (0, r, d) of the output block after two points: the blockwise attention of query row r over the first
    point's key and value blocks `y1`, `y2` and then the second's `x1`, `x2`, at output column d. Read entry by
    entry, the second point's quotient, numerator and denominator and the first point's three carried buffers are
    the specification's own terms: the running maximum after the first block is the new maximum from minus infinity,
    and the first block's denominator and numerator start from the zero word. -/
theorem twoStep_apply (y0 : Vec Ideal S1x512x64 .f32) (y1 y2 : Vec Ideal S1x1024x64 .f32)
    (x0 : Vec Ideal S1x512x64 .f32) (x1 x2 : Vec Ideal S1x1024x64 .f32) (r : Fin 512) (d : Fin 64) :
    twoStep (F := Ideal) y0 y1 y2 x0 x1 x2 (ix3 (0 : Fin 1) r d)
      = Attn.online
          (fun j => Attn.kscore (fun e => y0 (ix3 (0 : Fin 1) r e)) (fun e => y1 (ix3 (0 : Fin 1) j e)))
          (fun j => Attn.kscore (fun e => x0 (ix3 (0 : Fin 1) r e)) (fun e => x1 (ix3 (0 : Fin 1) j e)))
          (fun j => y2 (ix3 (0 : Fin 1) j d)) (fun j => x2 (ix3 (0 : Fin 1) j d)) := by
  unfold twoStep secondOut firstMax firstDen firstNum Attn.online Attn.newNum Attn.newDen
  simp only [pay3_apply, pay1_apply, pay11_apply, pay12_eq, pay10_apply, pay9_apply, pay2_eq, pay8_apply, pay7_apply,
    pay4_apply, pay5_apply, pay6_apply]

end Cert.KernelIdeal.Hand

end
-- ==== Proof.Blocks.lean ====
/-
  The three input blocks at a grid point, read at an index from the program's ARGUMENT arrays: the host reshapes
  each [2, 16, 2048, 64] argument to [32, 2048, 64] before the region, and window w's block at point t sits at block
  index × block size in that array.
-/
import proofs.«420729_j12979391169218_3_alg».proof.Proof.Names
import Idealize.ShloMosaic.Lib.Pipeline.Value
import Idealize.ShloMosaic.Lib.ValueIdx
import Idealize.ShloMosaic.Lib.StableHlo.Run

noncomputable section

namespace Cert.KernelIdeal.Hand

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-! ## The index maps over the grid -/

/-- Point `t` of the (32, 4, 2) grid, in row-major order, has coordinates (t / 8, (t / 2) % 4, t % 2). The query
    window's block index there is (t / 8, (t / 2) % 4, 0); the key and value windows' is (t / 8, t % 2, 0). Decided
    once over the 256 points. -/
theorem idx_facts : ∀ t : Fin cfg0.N,
    win0_0.index t (0 : Fin 3) = t.val / 8 ∧ win0_0.index t (1 : Fin 3) = (t.val / 2) % 4 ∧ win0_0.index t (2 : Fin 3) = 0
    ∧ win0_1.index t (0 : Fin 3) = t.val / 8 ∧ win0_1.index t (1 : Fin 3) = t.val % 2 ∧ win0_1.index t (2 : Fin 3) = 0
    ∧ win0_2.index t (0 : Fin 3) = t.val / 8 ∧ win0_2.index t (1 : Fin 3) = t.val % 2 ∧ win0_2.index t (2 : Fin 3) = 0 :=
  (by decide +kernel : ∀ t : Fin grid0.N, _)

/-! ## The reshape read at an index -/

/-- The reshape of a [2, 16, 2048, 64] array to [32, 2048, 64] reads (bh, s, e) at (b, h, s, e) whenever
    bh = 16 b + h: both indices have row-major position ((16 b + h) · 2048 + s) · 64 + e. -/
theorem reshape_apply {α : Type} (x : S2x16x2048x64.Idx → α) (h : S2x16x2048x64.ShapeCasts S32x2048x64)
    (bh : Fin 32) (s : Fin 2048) (e : Fin 64) (b : Fin 2) (hd : Fin 16) (hb : bh.val = b.val * 16 + hd.val) :
    shapeCast S32x2048x64 x h (ix3 bh s e) = x (ix4 b hd s e) := by
  refine shapeCast_apply x h _ _ ?_
  rw [Shape.rowMajor_val_four, Shape.rowMajor_val_three]
  show ((b.val * 16 + hd.val) * 2048 + s.val) * 64 + e.val = (bh.val * 2048 + s.val) * 64 + e.val
  rw [hb]

/-- At point `t` the batch-head `t / 8` splits as batch `t / 128` and head `(t / 8) % 16`. -/
theorem bh_split (t : Fin cfg0.N) : t.val / 8 = (bOf t).val * 16 + (hOf t).val := by
  show t.val / 8 = t.val / 128 * 16 + (t.val / 8) % 16
  omega

/-! ## The arrays the region finds: the host's reshapes of the arguments -/

/-- The first window's array when the region is entered is the reshape of the first argument. -/
theorem V_main_v0 (c : Dev nD) : (V m c main_v0 : S32x2048x64.Idx → Elt F .f32)
    = shapeCast S32x2048x64 (m ((c : Thread nD τ).loc main_arg0)) shapeCasts_S2x16x2048x64_S32x2048x64 := by
  show StableHlo.after hostOps0 (fun b => m (c, b)) (Proc.devRef .tc main_v0) = _
  after_results
  rfl

/-- The second window's array when the region is entered is the reshape of the second argument. -/
theorem V_main_v1 (c : Dev nD) : (V m c main_v1 : S32x2048x64.Idx → Elt F .f32)
    = shapeCast S32x2048x64 (m ((c : Thread nD τ).loc main_arg1)) shapeCasts_S2x16x2048x64_S32x2048x64 := by
  show StableHlo.after hostOps0 (fun b => m (c, b)) (Proc.devRef .tc main_v1) = _
  after_results
  rfl

/-- The third window's array when the region is entered is the reshape of the third argument. -/
theorem V_main_v2 (c : Dev nD) : (V m c main_v2 : S32x2048x64.Idx → Elt F .f32)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-! ## The blocks -/

/-- Row r, feature e of the query block at point t is the first argument at (batch, head, that row's position, e). -/
theorem qblk_apply (c : Dev nD) (t : Fin cfg0.N) (r : Fin 512) (e : Fin 64) :
    qblk m c t (ix3 (0 : Fin 1) r e) = m ((c : Thread nD τ).loc main_arg0) (ix4 (bOf t) (hOf t) (qRow t r) e) := by
  obtain ⟨e0, e1, e2, -⟩ := idx_facts t
  have hN : t.val < 256 := lt_of_lt_of_eq t.isLt N256
  -- the block's element (0, r, e) sits in the [32, 2048, 64] array at block index × block size + its coordinate
  have hemb : ((cfg0.win 0).blk t).view.emb (ix3 (0 : Fin 1) r e) = ix3 (⟨t.val / 8, by omega⟩ : Fin 32) (qRow t r) e := by
    funext a; apply Fin.ext
    match a with
    | ⟨0, _⟩ => show win0_0.index t (0 : Fin 3) * 1 + 1 * 0 = t.val / 8; rw [e0]; omega
    | ⟨1, _⟩ => show win0_0.index t (1 : Fin 3) * 512 + 1 * r.val = ((t.val / 2) % 4) * 512 + r.val; rw [e1]; omega
    | ⟨2, _⟩ => show win0_0.index t (2 : Fin 3) * 64 + 1 * e.val = e.val; rw [e2]; omega
  unfold qblk iblk
  rw [View.read_apply]
  show V m c main_v0 (((cfg0.win 0).blk t).view.emb (ix3 (0 : Fin 1) r e)) = _
  rw [V_main_v0, hemb]
  exact reshape_apply _ _ _ _ _ _ _ (bh_split t)

/-- Row j, feature e of the key block at point t is the second argument at (batch, head, that row's position, e). -/
theorem kblk_apply (c : Dev nD) (t : Fin cfg0.N) (j : Fin 1024) (e : Fin 64) :
    kblk m c t (ix3 (0 : Fin 1) j e) = m ((c : Thread nD τ).loc main_arg1) (ix4 (bOf t) (hOf t) (kRow t j) e) := by
  obtain ⟨-, -, -, e0, e1, e2, -⟩ := idx_facts t
  have hN : t.val < 256 := lt_of_lt_of_eq t.isLt N256
  -- the block's element (0, j, e) sits in the [32, 2048, 64] array at block index × block size + its coordinate
  have hemb : ((cfg0.win 1).blk t).view.emb (ix3 (0 : Fin 1) j e) = ix3 (⟨t.val / 8, by omega⟩ : Fin 32) (kRow t j) e := by
    funext a; apply Fin.ext
    match a with
    | ⟨0, _⟩ => show win0_1.index t (0 : Fin 3) * 1 + 1 * 0 = t.val / 8; rw [e0]; omega
    | ⟨1, _⟩ => show win0_1.index t (1 : Fin 3) * 1024 + 1 * j.val = (t.val % 2) * 1024 + j.val; rw [e1]; omega
    | ⟨2, _⟩ => show win0_1.index t (2 : Fin 3) * 64 + 1 * e.val = e.val; rw [e2]; omega
  unfold kblk iblk
  rw [View.read_apply]
  show V m c main_v1 (((cfg0.win 1).blk t).view.emb (ix3 (0 : Fin 1) j e)) = _
  rw [V_main_v1, hemb]
  exact reshape_apply _ _ _ _ _ _ _ (bh_split t)

/-- Row j, feature e of the value block at point t is the third argument at (batch, head, that row's position, e). -/
theorem vblk_apply (c : Dev nD) (t : Fin cfg0.N) (j : Fin 1024) (e : Fin 64) :
    vblk m c t (ix3 (0 : Fin 1) j e) = m ((c : Thread nD τ).loc main_arg2) (ix4 (bOf t) (hOf t) (kRow t j) e) := by
  obtain ⟨-, -, -, -, -, -, e0, e1, e2⟩ := idx_facts t
  have hN : t.val < 256 := lt_of_lt_of_eq t.isLt N256
  -- the block's element (0, j, e) sits in the [32, 2048, 64] array at block index × block size + its coordinate
  have hemb : ((cfg0.win 2).blk t).view.emb (ix3 (0 : Fin 1) j e) = ix3 (⟨t.val / 8, by omega⟩ : Fin 32) (kRow t j) e := by
    funext a; apply Fin.ext
    match a with
    | ⟨0, _⟩ => show win0_2.index t (0 : Fin 3) * 1 + 1 * 0 = t.val / 8; rw [e0]; omega
    | ⟨1, _⟩ => show win0_2.index t (1 : Fin 3) * 1024 + 1 * j.val = (t.val % 2) * 1024 + j.val; rw [e1]; omega
    | ⟨2, _⟩ => show win0_2.index t (2 : Fin 3) * 64 + 1 * e.val = e.val; rw [e2]; omega
  unfold vblk iblk
  rw [View.read_apply]
  show V m c main_v2 (((cfg0.win 2).blk t).view.emb (ix3 (0 : Fin 1) j e)) = _
  rw [V_main_v2, hemb]
  exact reshape_apply _ _ _ _ _ _ _ (bh_split t)

end Cert.KernelIdeal.Hand

end
-- ==== Proof.SpecLaw.lean ====
/-
  THE LAW: on finite inputs the blockwise attention row equals the whole-row one.

  Both ways are softmax-weighted means of the value column, and softmax does not see the number that is subtracted
  before the exponential: with the weights e^{s_k}, both are (∑ e^{s_k} v_k) / (∑ e^{s_k}). The steps: the float
  words as extended reals; both scores are the real (∑ q_e k_e) / 8; a fold of max over finitely many reals is a
  real; each running quantity is a real; the identity on the reals; the split of the 2048 keys into two halves.
-/
import proofs.«420729_j12979391169218_3_alg».proof.Proof.Spec

noncomputable section

namespace Cert.Attn

open Idealize.ShloMosaic

/-! ### The float words -/

/-- The word of 0.125 denotes one eighth. -/
theorem word_eighth : Ideal.ofBits .f32 0x3E000000#32 = (((1 : ℝ) / 8 : ℝ) : EReal) := by
  simp [Ideal.ofBits, Ideal.ieee, -EReal.coe_mul]; norm_num

/-- The word of 1.0 denotes one. -/
theorem word_one : Ideal.ofBits .f32 0x3F800000#32 = ((1 : ℝ) : EReal) := by
  simp [Ideal.ofBits, Ideal.ieee, -EReal.coe_mul]; norm_num

/-- The word of 64.0 denotes sixty-four. -/
theorem word_64 : Ideal.ofBits .f32 0x42800000#32 = ((64 : ℝ) : EReal) := by
  simp [Ideal.ofBits, Ideal.ieee, -EReal.coe_mul]; norm_num

/-- The word of +0.0 denotes zero. -/
theorem word_zero : Ideal.ofBits .f32 0x00000000#32 = ((0 : ℝ) : EReal) := by
  rw [EReal.coe_zero]; simp [Ideal.ofBits, Ideal.ieee]

/-- The word of minus infinity denotes the bottom. -/
theorem word_ninf : Ideal.ofBits .f32 0xFF800000#32 = (⊥ : EReal) := by
  simp [Ideal.ofBits, Ideal.ieee]

/-! ### Sums and quotients of reals inside the extended reals -/

/-- A finite sum of reals, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a real that is not zero is the real quotient. -/
theorem div_coe_coe (x y : ℝ) (hy : y ≠ 0) : Ideal.div (x : EReal) (y : EReal) = ((x / y : ℝ) : EReal) := by
  rw [Ideal.div_coe hy, ← EReal.coe_mul, mul_one_div]

/-- The scale of the whole way, one over the square root of sixty-four, is one eighth. -/
theorem scale_eighth :
    Ideal.div (Ideal.ofBits .f32 0x3F800000#32) (Ideal.sqrt (Ideal.ofBits .f32 0x42800000#32))
      = (((1 : ℝ) / 8 : ℝ) : EReal) := by
  have h8 : Real.sqrt 64 = 8 := by
    rw [show (64 : ℝ) = 8 ^ 2 by norm_num]; exact Real.sqrt_sq (by norm_num)
  rw [word_one, word_64, Ideal.sqrt_coe, if_neg (by norm_num), h8, div_coe_coe 1 8 (by norm_num)]

/-! ### The two scores -/

/-- The score of a real query row against a real key row: the product sum over eight. -/
def sc (q k : Fin 64 → ℝ) : ℝ := (∑ e : Fin 64, q e * k e) / 8

/-- Scaling the query first gives the real score. -/
theorem kscore_coe {q k : Fin 64 → EReal} {qr kr : Fin 64 → ℝ} (hq : ∀ e, q e = (qr e : EReal))
    (hk : ∀ e, k e = (kr e : EReal)) : kscore q k = ((sc qr kr : ℝ) : EReal) := by
  have ht : ∀ e : Fin 64, (q e * Ideal.ofBits .f32 0x3E000000#32) * k e = ((qr e * (1 / 8) * kr e : ℝ) : EReal) :=
    fun e => by rw [hq e, hk e, word_eighth, ← EReal.coe_mul, ← EReal.coe_mul]
  unfold kscore sc
  rw [Finset.sum_congr rfl (fun e _ => ht e), coe_sum, Finset.sum_div]
  exact congrArg _ (Finset.sum_congr rfl (fun e _ => by ring))

/-- Scaling the product sum afterwards gives the same real score. -/
theorem rscore_coe {q k : Fin 64 → EReal} {qr kr : Fin 64 → ℝ} (hq : ∀ e, q e = (qr e : EReal))
    (hk : ∀ e, k e = (kr e : EReal)) : rscore q k = ((sc qr kr : ℝ) : EReal) := by
  have ht : ∀ e : Fin 64, q e * k e = ((qr e * kr e : ℝ) : EReal) :=
    fun e => by rw [hq e, hk e, ← EReal.coe_mul]
  unfold rscore sc
  rw [Finset.sum_congr rfl (fun e _ => ht e), coe_sum, scale_eighth, ← EReal.coe_mul, mul_one_div]

/-! ### A fold of max over finitely many reals is a real -/

/-- The larger of two reals, taken in the extended reals, is the larger real. -/
theorem coe_max (a b : ℝ) : max (a : EReal) (b : EReal) = ((max a b : ℝ) : EReal) :=
  (EReal.coe_strictMono.monotone.map_max).symm

/-- A real against the fold of max from the bottom over finitely many reals is a real. -/
theorem max_fold_coe {ι : Type} (f : ι → ℝ) (s : Finset ι) :
    ∀ a : ℝ, ∃ r : ℝ, max (a : EReal) (s.fold max (⊥ : EReal) (fun i => ((f i : ℝ) : EReal))) = (r : EReal) := by
  classical
  induction s using Finset.induction_on with
  | empty => intro a; exact ⟨a, by rw [Finset.fold_empty, max_bot_right]⟩
  | insert b s hb ih =>
    intro a
    obtain ⟨r, hr⟩ := ih (max a (f b))
    exact ⟨r, by rw [Finset.fold_insert hb, ← max_assoc, coe_max, hr]⟩

/-- The fold of max from the bottom over a nonempty finite family of reals is a real. -/
theorem fold_coe {ι : Type} (f : ι → ℝ) (s : Finset ι) (hs : s.Nonempty) :
    ∃ r : ℝ, s.fold max (⊥ : EReal) (fun i => ((f i : ℝ) : EReal)) = (r : EReal) := by
  classical
  obtain ⟨i, hi⟩ := hs
  obtain ⟨r, hr⟩ := max_fold_coe f (s.erase i) (f i)
  refine ⟨r, ?_⟩
  rw [← Finset.insert_erase hi, Finset.fold_insert (Finset.notMem_erase i s)]
  exact hr

/-- The running maximum after a block of real scores, from the bottom, is a real. -/
theorem newMax_bot_coe (s : Fin 1024 → ℝ) :
    ∃ r : ℝ, newMax ⊥ (fun j => ((s j : ℝ) : EReal)) = (r : EReal) := by
  obtain ⟨r, hr⟩ := fold_coe s Finset.univ ⟨0, Finset.mem_univ _⟩
  exact ⟨r, by rw [newMax, word_ninf, max_bot_left, hr]⟩

/-- The running maximum after a block of real scores, from a real, is a real. -/
theorem newMax_coe (m : ℝ) (s : Fin 1024 → ℝ) :
    ∃ r : ℝ, newMax (m : EReal) (fun j => ((s j : ℝ) : EReal)) = (r : EReal) := by
  obtain ⟨r, hr⟩ := max_fold_coe s Finset.univ m
  exact ⟨r, by rw [newMax, word_ninf, hr]⟩

/-- The maximum the whole way subtracts, over real scores, is a real. -/
theorem wholeMax_coe (p : Fin 2048 → ℝ) :
    ∃ r : ℝ, wholeMax (fun k => ((p k : ℝ) : EReal)) = (r : EReal) := by
  obtain ⟨r, hr⟩ := fold_coe p Finset.univ ⟨0, Finset.mem_univ _⟩
  exact ⟨r, by rw [wholeMax, word_ninf, max_bot_left, hr]⟩

/-! ### One block's update on reals -/

/-- The weight of a real score against a real maximum. -/
theorem exp_sub_coe (x μ : ℝ) : Ideal.exp ((x : EReal) - (μ : EReal)) = ((Real.exp (x - μ) : ℝ) : EReal) := by
  rw [← EReal.coe_sub, Ideal.exp_coe]

/-- The new denominator, when the old one is a real, the rescaling factor a real and the new maximum a real. -/
theorem newDen_coe (m : EReal) (l μ c : ℝ) (s : Fin 1024 → ℝ)
    (hc : Ideal.exp (m - (μ : EReal)) = (c : EReal))
    (h : newMax m (fun j => ((s j : ℝ) : EReal)) = (μ : EReal)) :
    newDen m (l : EReal) (fun j => ((s j : ℝ) : EReal)) = ((c * l + ∑ j : Fin 1024, Real.exp (s j - μ) : ℝ) : EReal) := by
  unfold newDen
  rw [h, hc, Finset.sum_congr rfl (fun j _ => exp_sub_coe (s j) μ), coe_sum, ← EReal.coe_mul, ← EReal.coe_add]

/-- The new numerator, likewise. -/
theorem newNum_coe (m : EReal) (a μ c : ℝ) (s v : Fin 1024 → ℝ)
    (hc : Ideal.exp (m - (μ : EReal)) = (c : EReal))
    (h : newMax m (fun j => ((s j : ℝ) : EReal)) = (μ : EReal)) :
    newNum m (a : EReal) (fun j => ((s j : ℝ) : EReal)) (fun j => ((v j : ℝ) : EReal))
      = ((c * a + ∑ j : Fin 1024, Real.exp (s j - μ) * v j : ℝ) : EReal) := by
  have ht : ∀ j : Fin 1024, Ideal.exp ((s j : EReal) - (μ : EReal)) * (v j : EReal)
      = ((Real.exp (s j - μ) * v j : ℝ) : EReal) := fun j => by rw [exp_sub_coe, ← EReal.coe_mul]
  unfold newNum
  rw [h, hc, Finset.sum_congr rfl (fun j _ => ht j), coe_sum, ← EReal.coe_mul, ← EReal.coe_add]

/-! ### The identity on the reals: the subtracted number cancels -/

/-- A weight splits: e^{x - c} = e^x e^{-c}. -/
theorem exp_sub_split (x c : ℝ) : Real.exp (x - c) = Real.exp x * Real.exp (-c) := by
  rw [sub_eq_add_neg, Real.exp_add]

/-- The blockwise quotient over two finite families, whatever the two maxima: the factor e^{-μ₂} leaves
    numerator and denominator together. -/
theorem real_online {ι : Type} [Fintype ι] (a b x y : ι → ℝ) (μ₁ μ₂ : ℝ) :
    (Real.exp (μ₁ - μ₂) * (0 * 0 + ∑ j, Real.exp (a j - μ₁) * x j) + ∑ j, Real.exp (b j - μ₂) * y j)
        / (Real.exp (μ₁ - μ₂) * (0 * 0 + ∑ j, Real.exp (a j - μ₁)) + ∑ j, Real.exp (b j - μ₂))
      = (∑ j, Real.exp (a j) * x j + ∑ j, Real.exp (b j) * y j) / (∑ j, Real.exp (a j) + ∑ j, Real.exp (b j)) := by
  have hw : ∀ j, Real.exp (μ₁ - μ₂) * Real.exp (a j - μ₁) = Real.exp (a j) * Real.exp (-μ₂) := fun j => by
    rw [← Real.exp_add, ← Real.exp_add]; congr 1; ring
  have hN : Real.exp (μ₁ - μ₂) * (0 * 0 + ∑ j, Real.exp (a j - μ₁) * x j) + ∑ j, Real.exp (b j - μ₂) * y j
      = (∑ j, Real.exp (a j) * x j + ∑ j, Real.exp (b j) * y j) * Real.exp (-μ₂) := by
    rw [mul_zero, zero_add, Finset.mul_sum, add_mul, Finset.sum_mul, Finset.sum_mul]
    refine congrArg₂ (· + ·) (Finset.sum_congr rfl fun j _ => ?_) (Finset.sum_congr rfl fun j _ => ?_)
    · rw [← mul_assoc, hw]; ring
    · rw [exp_sub_split]; ring
  have hD : Real.exp (μ₁ - μ₂) * (0 * 0 + ∑ j, Real.exp (a j - μ₁)) + ∑ j, Real.exp (b j - μ₂)
      = (∑ j, Real.exp (a j) + ∑ j, Real.exp (b j)) * Real.exp (-μ₂) := by
    rw [mul_zero, zero_add, Finset.mul_sum, add_mul, Finset.sum_mul, Finset.sum_mul]
    refine congrArg₂ (· + ·) (Finset.sum_congr rfl fun j _ => ?_) (Finset.sum_congr rfl fun j _ => ?_)
    · rw [hw]
    · rw [exp_sub_split]
  rw [hN, hD, mul_div_mul_right _ _ (Real.exp_ne_zero _)]

/-- The whole-row sum over a finite family, whatever the maximum. -/
theorem real_whole {κ : Type} [Fintype κ] (p v : κ → ℝ) (M : ℝ) :
    ∑ k, Real.exp (p k - M) / (0 + ∑ k', Real.exp (p k' - M)) * v k
      = (∑ k, Real.exp (p k) * v k) / (∑ k, Real.exp (p k)) := by
  have hZ : (0 + ∑ k', Real.exp (p k' - M)) = (∑ k', Real.exp (p k')) * Real.exp (-M) := by
    rw [zero_add, Finset.sum_mul]; exact Finset.sum_congr rfl fun k _ => exp_sub_split _ _
  rw [hZ, Finset.sum_div]
  refine Finset.sum_congr rfl fun k _ => ?_
  rw [exp_sub_split, mul_div_mul_right _ _ (Real.exp_ne_zero _), div_mul_eq_mul_div]

/-! ### The two ways on reals -/

/-- A sum of weights over the 1024 keys of a block is positive. -/
theorem sum_exp_pos (f : Fin 1024 → ℝ) : 0 < ∑ j : Fin 1024, Real.exp (f j) :=
  Finset.sum_pos (fun j _ => Real.exp_pos _) ⟨0, Finset.mem_univ _⟩

/-- The blockwise way on real scores and values: the weighted mean with the weights e^{s}. -/
theorem online_real (s0 s1 v0 v1 : Fin 1024 → ℝ) :
    online (fun j => ((s0 j : ℝ) : EReal)) (fun j => ((s1 j : ℝ) : EReal))
        (fun j => ((v0 j : ℝ) : EReal)) (fun j => ((v1 j : ℝ) : EReal))
      = (((∑ j, Real.exp (s0 j) * v0 j + ∑ j, Real.exp (s1 j) * v1 j)
          / (∑ j, Real.exp (s0 j) + ∑ j, Real.exp (s1 j)) : ℝ) : EReal) := by
  obtain ⟨μ₁, h₁⟩ := newMax_bot_coe s0
  obtain ⟨μ₂, h₂⟩ := newMax_coe μ₁ s1
  have hc₁ : Ideal.exp ((⊥ : EReal) - (μ₁ : EReal)) = ((0 : ℝ) : EReal) := by
    rw [EReal.bot_sub, Ideal.exp_bot, EReal.coe_zero]
  have hc₂ : Ideal.exp ((μ₁ : EReal) - (μ₂ : EReal)) = ((Real.exp (μ₁ - μ₂) : ℝ) : EReal) := exp_sub_coe μ₁ μ₂
  have hpos : 0 < Real.exp (μ₁ - μ₂) * (0 * 0 + ∑ j, Real.exp (s0 j - μ₁)) + ∑ j, Real.exp (s1 j - μ₂) := by
    rw [mul_zero, zero_add]
    exact add_pos (mul_pos (Real.exp_pos _) (sum_exp_pos _)) (sum_exp_pos _)
  unfold online
  rw [word_ninf, word_zero, h₁, newNum_coe ⊥ 0 μ₁ 0 s0 v0 hc₁ h₁, newDen_coe ⊥ 0 μ₁ 0 s0 hc₁ h₁,
    newNum_coe (μ₁ : EReal) _ μ₂ _ s1 v1 hc₂ h₂, newDen_coe (μ₁ : EReal) _ μ₂ _ s1 hc₂ h₂,
    div_coe_coe _ _ hpos.ne', real_online]

/-- The whole way on real scores and values: the same weighted mean. -/
theorem whole_real (p v : Fin 2048 → ℝ) :
    whole (fun k => ((p k : ℝ) : EReal)) (fun k => ((v k : ℝ) : EReal))
      = (((∑ k, Real.exp (p k) * v k) / (∑ k, Real.exp (p k)) : ℝ) : EReal) := by
  obtain ⟨M, hM⟩ := wholeMax_coe p
  have hpos : 0 < 0 + ∑ k' : Fin 2048, Real.exp (p k' - M) := by
    rw [zero_add]; exact Finset.sum_pos (fun j _ => Real.exp_pos _) ⟨0, Finset.mem_univ _⟩
  have ht : ∀ k : Fin 2048,
      Ideal.div (Ideal.exp ((p k : EReal) - (M : EReal)))
          (((0 : ℝ) : EReal) + ((∑ k' : Fin 2048, Real.exp (p k' - M) : ℝ) : EReal)) * (v k : EReal)
        = ((Real.exp (p k - M) / (0 + ∑ k' : Fin 2048, Real.exp (p k' - M)) * v k : ℝ) : EReal) := fun k => by
    rw [exp_sub_coe, ← EReal.coe_add, div_coe_coe _ _ hpos.ne', ← EReal.coe_mul]
  unfold whole
  rw [hM, word_zero, Finset.sum_congr rfl (fun k' _ => exp_sub_coe (p k') M), coe_sum,
    Finset.sum_congr rfl (fun k _ => ht k), coe_sum, real_whole]

/-! ### The 2048 keys are the two blocks -/

/-- A sum over the 2048 keys is the sum over the first block plus the sum over the second. -/
theorem sum_lo_hi (f : Fin 2048 → ℝ) : ∑ k : Fin 2048, f k = ∑ j : Fin 1024, f (lo j) + ∑ j : Fin 1024, f (hi j) := by
  have h := Fin.sum_univ_add (a := 1024) (b := 1024) f
  rw [h]
  refine congrArg₂ (· + ·) (Finset.sum_congr rfl fun j _ => ?_) (Finset.sum_congr rfl fun j _ => ?_)
  · exact congrArg f (Fin.ext rfl)
  · exact congrArg f (Fin.ext rfl)

/-! ### The law -/

/-- For a finite query row `q`, finite key rows `k` and a finite value column `v`: the blockwise result over the two
    halves of the keys is the whole-row result. -/
theorem online_eq_whole (q : Fin 64 → EReal) (k : Fin 2048 → Fin 64 → EReal) (v : Fin 2048 → EReal)
    (hq : ∀ e, ∃ r : ℝ, q e = (r : EReal)) (hk : ∀ j e, ∃ r : ℝ, k j e = (r : EReal))
    (hv : ∀ j, ∃ r : ℝ, v j = (r : EReal)) :
    online (fun j => kscore q (k (lo j))) (fun j => kscore q (k (hi j))) (fun j => v (lo j)) (fun j => v (hi j))
      = whole (fun k' => rscore q (k k')) v := by
  choose qr hq using hq
  choose kr hk using hk
  choose vr hv using hv
  have hA : (fun j => kscore q (k (lo j))) = fun j => ((sc qr (kr (lo j)) : ℝ) : EReal) :=
    funext fun j => kscore_coe hq (hk (lo j))
  have hB : (fun j => kscore q (k (hi j))) = fun j => ((sc qr (kr (hi j)) : ℝ) : EReal) :=
    funext fun j => kscore_coe hq (hk (hi j))
  have hC : (fun j => v (lo j)) = fun j => ((vr (lo j) : ℝ) : EReal) := funext fun j => hv (lo j)
  have hD : (fun j => v (hi j)) = fun j => ((vr (hi j) : ℝ) : EReal) := funext fun j => hv (hi j)
  have hP : (fun k' => rscore q (k k')) = fun k' => ((sc qr (kr k') : ℝ) : EReal) :=
    funext fun k' => rscore_coe hq (hk k')
  have hV : v = fun j => ((vr j : ℝ) : EReal) := funext hv
  rw [hA, hB, hC, hD, hP, hV, online_real, whole_real,
    sum_lo_hi (fun k' => Real.exp (sc qr (kr k')) * vr k'), sum_lo_hi (fun k' => Real.exp (sc qr (kr k')))]

end Cert.Attn

end
-- ==== Proof.Final.lean ====
/-
  The kernel's result array. Query block (batch-head bh, block qi) is visited at two consecutive grid points, key
  block 0 then key block 1; the second point writes the output block back, and that block is the blockwise attention
  of its 512 query rows over the two key and value blocks — on finite inputs the whole-row attention. The output
  blocks of the odd points tile the [32, 2048, 64] array, and the host's reshape to [2, 16, 2048, 64] reads batch-head
  bh as batch bh / 16, head bh % 16.
-/
import proofs.«420729_j12979391169218_3_alg».proof.Proof.Names
import proofs.«420729_j12979391169218_3_alg».proof.Proof.Pieces
import proofs.«420729_j12979391169218_3_alg».proof.Proof.PayStep
import proofs.«420729_j12979391169218_3_alg».proof.Proof.Blocks
import proofs.«420729_j12979391169218_3_alg».proof.Proof.SpecLaw
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The three argument arrays on core `c`. -/
abbrev A0 (c : Dev nD) : S2x16x2048x64.Idx → EReal := m ((c : Thread nD τ).loc main_arg0)
abbrev A1 (c : Dev nD) : S2x16x2048x64.Idx → EReal := m ((c : Thread nD τ).loc main_arg1)
abbrev A2 (c : Dev nD) : S2x16x2048x64.Idx → EReal := m ((c : Thread nD τ).loc main_arg2)

/-- Every entry of the three arguments on core `c` is a real number. -/
def Finite3 (c : Dev nD) : Prop :=
  (∀ i, ∃ r : ℝ, A0 m c i = (r : EReal)) ∧ (∀ i, ∃ r : ℝ, A1 m c i = (r : EReal)) ∧ (∀ i, ∃ r : ℝ, A2 m c i = (r : EReal))

/-- The output window's block index at point `t`: batch-head `t / 8`, query block `(t / 2) % 4`, the whole feature axis. -/
theorem idx3 : ∀ t : Fin cfg0.N, win0_3.index t (0 : Fin 3) = t.val / 8 ∧ win0_3.index t (1 : Fin 3) = (t.val / 2) % 4
    ∧ win0_3.index t (2 : Fin 3) = 0 :=
  (by decide +kernel : ∀ t : Fin grid0.N, _)

/-- At an odd point, entry (0, r, d) of the two-point term is the whole-row attention of the point's batch, head and
    query row at output column d: the two points share batch, head and query block, and their key blocks are the two
    halves of the keys. -/
theorem row_eq (c : Dev nD) (hfin : Finite3 m c) (t : Fin cfg0.N) (h1 : t.val % 2 = 1) (r : Fin 512) (d : Fin 64) :
    twoStep (F := Ideal) (qblk m c (prev t)) (kblk m c (prev t)) (vblk m c (prev t)) (qblk m c t) (kblk m c t) (vblk m c t)
        (ix3 (0 : Fin 1) r d)
      = Attn.attnAt (A0 m c) (A1 m c) (A2 m c) (bOf t) (hOf t) (qRow t r) d := by
  have hN : t.val < 256 := lt_of_lt_of_eq t.isLt N256
  have hb : bOf (prev t) = bOf t := Fin.ext (by show (t.val - 1) / 128 = t.val / 128; omega)
  have hh : hOf (prev t) = hOf t := Fin.ext (by show ((t.val - 1) / 8) % 16 = (t.val / 8) % 16; omega)
  have hq : qRow (prev t) r = qRow t r :=
    Fin.ext (by show (((t.val - 1) / 2) % 4) * 512 + r.val = ((t.val / 2) % 4) * 512 + r.val; omega)
  have hk0 : ∀ j, kRow (prev t) j = Attn.lo j := fun j =>
    Fin.ext (by show ((t.val - 1) % 2) * 1024 + j.val = j.val; omega)
  have hk1 : ∀ j, kRow t j = Attn.hi j := fun j =>
    Fin.ext (by show (t.val % 2) * 1024 + j.val = 1024 + j.val; omega)
  rw [twoStep_apply]
  simp only [qblk_apply, kblk_apply, vblk_apply, hb, hh, hq, hk0, hk1]
  exact Attn.online_eq_whole (fun e => A0 m c (ix4 (bOf t) (hOf t) (qRow t r) e))
    (fun k' e => A1 m c (ix4 (bOf t) (hOf t) k' e)) (fun k' => A2 m c (ix4 (bOf t) (hOf t) k' d))
    (fun e => hfin.1 _) (fun j e => hfin.2.1 _) (fun j => hfin.2.2 _)

/-- The whole-row attention of the arguments, laid out as the [32, 2048, 64] array the region writes: batch-head `bh`
    is batch `bh / 16`, head `bh % 16`. -/
def res3 (c : Dev nD) : S32x2048x64.Idx → EReal := fun i =>
  Attn.attnAt (A0 m c) (A1 m c) (A2 m c)
    ⟨(i 0).val / 16, by have h : (i 0).val < 32 := (i 0).isLt; omega⟩ ⟨(i 0).val % 16, by omega⟩
    ⟨(i 1).val, (i 1).isLt⟩ ⟨(i 2).val, (i 2).isLt⟩

/-- What an odd point writes back is its block of `res3`: entry (0, r, d) of the block sits in the array at
    (t / 8, ((t / 2) % 4) · 512 + r, d). -/
theorem flushed_eq (c : Dev nD) (hfin : Finite3 m c) (t : Fin cfg0.N) (hf : (cfg0.win 3).flush t = true) :
    (dats m 0 c).flushed 3 t = ((cfg0.win 3).blk t).view.read (Elt Ideal) (res3 m c) := by
  have h1 : t.val % 2 = 1 := (flush0_3 t).mp hf
  have hN : t.val < 256 := lt_of_lt_of_eq t.isLt N256
  obtain ⟨e0, e1, e2⟩ := idx3 t
  have key : ∀ (r : Fin 512) (d : Fin 64),
      twoStep (F := Ideal) (qblk m c (prev t)) (kblk m c (prev t)) (vblk m c (prev t)) (qblk m c t) (kblk m c t) (vblk m c t)
          (ix3 (0 : Fin 1) r d)
        = res3 m c (((cfg0.win 3).blk t).view.emb (ix3 (0 : Fin 1) r d)) := fun r d => by
    rw [row_eq m c hfin t h1 r d]
    unfold res3
    have c0 : ((((cfg0.win 3).blk t).view.emb (ix3 (0 : Fin 1) r d)) 0).val = t.val / 8 := by
      show win0_3.index t (0 : Fin 3) * 1 + 1 * 0 = t.val / 8
      rw [e0]; omega
    have c1 : ((((cfg0.win 3).blk t).view.emb (ix3 (0 : Fin 1) r d)) 1).val = ((t.val / 2) % 4) * 512 + r.val := by
      show win0_3.index t (1 : Fin 3) * 512 + 1 * r.val = ((t.val / 2) % 4) * 512 + r.val
      rw [e1]; omega
    have c2 : ((((cfg0.win 3).blk t).view.emb (ix3 (0 : Fin 1) r d)) 2).val = d.val := by
      show win0_3.index t (2 : Fin 3) * 64 + 1 * d.val = d.val
      rw [e2]; omega
    generalize ((cfg0.win 3).blk t).view.emb (ix3 (0 : Fin 1) r d) = J at c0 c1 c2 ⊢
    have hb : bOf t = ⟨(J 0).val / 16, by rw [c0]; omega⟩ := Fin.ext (by show t.val / 128 = (J 0).val / 16; omega)
    have hh : hOf t = ⟨(J 0).val % 16, by omega⟩ := Fin.ext (by show (t.val / 8) % 16 = (J 0).val % 16; omega)
    have hq : qRow t r = ⟨(J 1).val, (J 1).isLt⟩ := Fin.ext (by show ((t.val / 2) % 4) * 512 + r.val = (J 1).val; omega)
    have hd : d = ⟨(J 2).val, (J 2).isLt⟩ := Fin.ext (by show d.val = (J 2).val; omega)
    rw [hb, hh, hq]
    exact congrArg _ hd
  show (cfg0.win 3).cut (grid0.coords t) ((dats m 0 c).after 3 t) = _
  rw [after0_3, outsAt_odd m c t h1]
  funext y
  rw [View.read_apply]
  obtain ⟨z, r, d, rfl⟩ : ∃ (z : Fin 1) (r : Fin 512) (d : Fin 64), y = ix3 z r d := ⟨y 0, y 1, y 2, eq_ix3 y⟩
  obtain rfl : z = 0 := Subsingleton.elim _ _
  exact key r d

/-- Every index of the [32, 2048, 64] array lies in the block of an odd point: batch-head `i₀`, query block `i₁ / 512`. -/
theorem cover3 (i : S32x2048x64.Idx) :
    ∃ t : Fin cfg0.N, (cfg0.win 3).flush t = true ∧ i ∈ ((cfg0.win 3).blk t).view.set := by
  have h0 : (i 0).val < 32 := (i 0).isLt
  have h1 : (i 1).val < 2048 := (i 1).isLt
  have h2 : (i 2).val < 64 := (i 2).isLt
  have htv : ((i 0).val * 4 + (i 1).val / 512) * 2 + 1 < cfg0.N := by rw [N256]; omega
  obtain ⟨e0, e1, e2⟩ := idx3 ⟨((i 0).val * 4 + (i 1).val / 512) * 2 + 1, htv⟩
  refine ⟨⟨((i 0).val * 4 + (i 1).val / 512) * 2 + 1, htv⟩, (flush0_3 _).mpr (by show (((i 0).val * 4 + (i 1).val / 512) * 2 + 1) % 2 = 1; omega), ?_⟩
  show i ∈ ((View.whole main_v3).slice (win0_3.rect ⟨((i 0).val * 4 + (i 1).val / 512) * 2 + 1, htv⟩)).set
  rw [View.set_slice_whole, Rect.mem_set_unit]
  intro a
  match a with
  | ⟨0, _⟩ =>
    show win0_3.index ⟨((i 0).val * 4 + (i 1).val / 512) * 2 + 1, htv⟩ (0 : Fin 3) * 1 ≤ (i 0).val
      ∧ (i 0).val < win0_3.index ⟨((i 0).val * 4 + (i 1).val / 512) * 2 + 1, htv⟩ (0 : Fin 3) * 1 + 1
    rw [e0]; show (((i 0).val * 4 + (i 1).val / 512) * 2 + 1) / 8 * 1 ≤ _ ∧ _ < (((i 0).val * 4 + (i 1).val / 512) * 2 + 1) / 8 * 1 + 1; omega
  | ⟨1, _⟩ =>
    show win0_3.index ⟨((i 0).val * 4 + (i 1).val / 512) * 2 + 1, htv⟩ (1 : Fin 3) * 512 ≤ (i 1).val
      ∧ (i 1).val < win0_3.index ⟨((i 0).val * 4 + (i 1).val / 512) * 2 + 1, htv⟩ (1 : Fin 3) * 512 + 512
    rw [e1]; show ((((i 0).val * 4 + (i 1).val / 512) * 2 + 1) / 2) % 4 * 512 ≤ _ ∧ _ < ((((i 0).val * 4 + (i 1).val / 512) * 2 + 1) / 2) % 4 * 512 + 512; omega
  | ⟨2, _⟩ =>
    show win0_3.index ⟨((i 0).val * 4 + (i 1).val / 512) * 2 + 1, htv⟩ (2 : Fin 3) * 64 ≤ (i 2).val
      ∧ (i 2).val < win0_3.index ⟨((i 0).val * 4 + (i 1).val / 512) * 2 + 1, htv⟩ (2 : Fin 3) * 64 + 64
    rw [e2]; omega

/-- So on finite inputs the array the region writes ends holding `res3`. -/
theorem final3 (c : Dev nD) (hfin : Finite3 m c) : (dats m 0 c).arrAt 3 cfg0.N = res3 m c :=
  (dats m 0 c).arrAt_eq_of_cover 3 (res3 m c) (flushed_eq m c hfin) (cover3)

/-- The host's reshape of `res3` to [2, 16, 2048, 64] is the attention of the arguments. -/
theorem reshape_res3 (c : Dev nD) :
    shapeCast S2x16x2048x64 (res3 m c) shapeCasts_S32x2048x64_S2x16x2048x64 = Attn.attn (A0 m c) (A1 m c) (A2 m c) := by
  funext i
  obtain ⟨b, h, q, d, rfl⟩ : ∃ (b : Fin 2) (h : Fin 16) (q : Fin 2048) (d : Fin 64), i = ix4 b h q d :=
    ⟨i 0, i 1, i 2, i 3, eq_ix4 i⟩
  have hb := b.isLt
  have hh := h.isLt
  refine (shapeCast_apply (res3 m c) shapeCasts_S32x2048x64_S2x16x2048x64 (ix4 b h q d)
    (ix3 (⟨b.val * 16 + h.val, by omega⟩ : Fin 32) q d) ?_).trans ?_
  · rw [Shape.rowMajor_val_three, Shape.rowMajor_val_four]
    show ((b.val * 16 + h.val) * 2048 + q.val) * 64 + d.val = ((b.val * 16 + h.val) * 2048 + q.val) * 64 + d.val
    rfl
  · rw [Attn.attn_apply]
    unfold res3
    have e1 : (⟨(b.val * 16 + h.val) / 16, by omega⟩ : Fin 2) = b := Fin.ext (by show (b.val * 16 + h.val) / 16 = b.val; omega)
    have e2 : (⟨(b.val * 16 + h.val) % 16, by omega⟩ : Fin 16) = h := Fin.ext (by show (b.val * 16 + h.val) % 16 = h.val; omega)
    show Attn.attnAt (A0 m c) (A1 m c) (A2 m c) ⟨(b.val * 16 + h.val) / 16, _⟩ ⟨(b.val * 16 + h.val) % 16, _⟩ ⟨q.val, _⟩ ⟨d.val, _⟩ = _
    rw [e1, e2]

/-- After the host's reshape the result buffer holds the attention of the arguments. -/
theorem tail_eq (c : Dev nD) (hfin : Finite3 m c) :
    Pipeline.afterTail₀ cfgs (dats m) 0 (V0 m) [hostOps1] c main_v4 = Attn.attn (A0 m c) (A1 m c) (A2 m c) := by
  unfold Pipeline.afterTail₀
  show StableHlo.after hostOps1 _ (Proc.devRef .tc main_v4) = _
  after_results
  have hW : Pipeline.withArrays (cfgs 0).spec c (V0 m c) (fun w => (dats m 0 c).arrAt w (cfgs 0).N) (Proc.devRef .tc main_v3)
      = res3 m c := (Pipeline.withArrays_arr spec0 launch0.win.arr_inj c _ _ 3).trans (final3 m c hfin)
  rw [hW]
  exact reshape_res3 m c

/-- The kernel's run, read on finite inputs: the result buffer ends at the attention of the arguments, the arguments
    unchanged. -/
theorem run (hfin : ∀ c, Finite3 m c) :
    θ_run defs (onTc (τ := τ) (main (F := Ideal))) ⟨m, fun _ => 0, ρ⟩ fun r => ∀ c : Dev nD,
      r.2.mem ((c : Thread nD τ).loc main_v4) = Attn.attn (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans (tail_eq m c (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefValue.lean ====
/-
  The reference's result, stage by stage, is the whole-row attention of the specification.
-/
import proofs.«420729_j12979391169218_3_alg».proof.Proof.Gen.ReferenceIdeal.Read
import proofs.«420729_j12979391169218_3_alg».proof.Proof.Spec

noncomputable section

namespace Cert.ReferenceIdeal.RefValue

open Idealize.ShloMosaic Idealize.ShloMosaic.ValueIdx Cert.ReferenceIdeal Cert.ReferenceIdeal.Gen
open Cert.ReferenceIdeal.Read

/-- The score row of query position `(b, h, q)`: key position `k` ↦ the scaled product sum of the two feature rows. -/
abbrev srow (x0 x1 : (⟨S2x16x2048x64, .f32⟩ : BufTy).Contents (Elt Ideal)) (b : Fin 2) (h : Fin 16) (q : Fin 2048) :
    Fin 2048 → EReal :=
  fun k => Attn.rscore (fun e => x0 (ix4 b h q e)) (fun e => x1 (ix4 b h k e))

/-- The scaled product stage at `(b, h, q, k)` is the score of query row `(b, h, q)` against key row `(b, h, k)`:
    the contraction over the 64 features, times the scalar `1 / √64` broadcast to every position. -/
theorem v4_at (x0 x1 : (⟨S2x16x2048x64, .f32⟩ : BufTy).Contents (Elt Ideal)) (b : Fin 2) (h : Fin 16) (q k : Fin 2048) :
    val_main_v4 (F := Ideal) x0 x1 (ix4 b h q k) = srow x0 x1 b h q k := by
  have el : ∀ e : Fin 64, lidx_main_v2 (ix4 b h q k) e = ix4 b h q e := fun e =>
    funext fun a => Fin.ext (by match a with | ⟨0, _⟩ => rfl | ⟨1, _⟩ => rfl | ⟨2, _⟩ => rfl | ⟨3, _⟩ => rfl)
  have er : ∀ e : Fin 64, ridx_main_v2 (ix4 b h q k) e = ix4 b h k e := fun e =>
    funext fun a => Fin.ext (by match a with | ⟨0, _⟩ => rfl | ⟨1, _⟩ => rfl | ⟨2, _⟩ => rfl | ⟨3, _⟩ => rfl)
  rw [val_main_v4_apply, val_main_v2_apply, val_main_v3_apply, val_main_v1_apply, val_main_cst_0_apply,
    val_main_v0_apply, val_main_cst_apply]
  simp only [Ideal.mulf_def, Ideal.hostDivf_def, Ideal.hostUnary_sqrt_def, Ideal.ofBits_def, el, er]
  rfl

/-- The reduced index `(b, h, q)` with key position `k` put back on the last axis is `(b, h, q, k)`. -/
theorem lift_ix3 (hr : S2x16x2048x2048.Reduces [3] S2x16x2048) (b : Fin 2) (h : Fin 16) (q : Fin 2048)
    (k : Fin (S2x16x2048x2048.size 3)) :
    hr.lift (ix3 b h q) k = ix4 b h q (⟨k.val, k.isLt⟩ : Fin 2048) := by
  funext c; apply Fin.ext
  fin_cases c <;> rfl

/-- The maximum stage at `(b, h, q)`: `-∞` against the fold of `max` from `-∞` over the score row, the maximum
    the whole-row way subtracts. The reduce over the last axis is a fold over that axis's 2048 coordinates because
    `max` is commutative and associative. -/
theorem v7_at (x0 x1 : (⟨S2x16x2048x64, .f32⟩ : BufTy).Contents (Elt Ideal)) (b : Fin 2) (h : Fin 16) (q : Fin 2048) :
    val_main_v7 (F := Ideal) x0 x1 (ix3 b h q) = Attn.wholeMax (srow x0 x1 b h q) := by
  have hr : S2x16x2048x2048.Reduces [3] S2x16x2048 := by decide
  have hf : (val_main_v4 (F := Ideal) x0 x1 ∘ hr.lift (ix3 b h q)) = fun k : Fin 2048 => srow x0 x1 b h q k :=
    funext fun k => (congrArg (val_main_v4 (F := Ideal) x0 x1) (lift_ix3 hr b h q k)).trans (v4_at x0 x1 b h q _)
  rw [val_main_v7_apply, val_main_v6_apply, val_main_cst_2_apply]
  unfold val_main_v5
  rw [Host.reduce_eq_fold_single FloatOps.maximumf _ _ reducesTo_S2x16x2048x2048_S2x16x2048_d3 hr h_S_]
  unfold Attn.wholeMax
  simp only [Ideal.maximumf_def, Ideal.ofBits_def]
  refine congrArg (max (Ideal.ofBits .f32 0xFF800000#32)) ?_
  exact congrArg (fun f => Finset.fold max (Ideal.ofBits .f32 0xFF800000#32) f (Finset.univ : Finset (Fin 2048))) hf

/-- The weight stage at `(b, h, q, k)`: the exponential of the score less the row's maximum (the maximum is read
    through its two broadcasts back at `(b, h, q)`). -/
theorem v11_at (x0 x1 : (⟨S2x16x2048x64, .f32⟩ : BufTy).Contents (Elt Ideal)) (b : Fin 2) (h : Fin 16) (q k : Fin 2048) :
    val_main_v11 (F := Ideal) x0 x1 (ix4 b h q k)
      = Ideal.exp (srow x0 x1 b h q k - Attn.wholeMax (srow x0 x1 b h q)) := by
  have e89 : idx_main_v8 (idx_main_v9 (ix4 b h q k)) = ix3 b h q :=
    funext fun a => Fin.ext (by match a with | ⟨0, _⟩ => rfl | ⟨1, _⟩ => rfl | ⟨2, _⟩ => rfl)
  rw [val_main_v11_apply, val_main_v10_apply, val_main_v9_apply, val_main_v8_apply, e89, v4_at, v7_at]
  simp only [Ideal.subf_def, Ideal.hostUnary_exp_def]

/-- The denominator stage at `(b, h, q, k)`: zero plus the sum of the row's 2048 weights (read through its two
    broadcasts back at `(b, h, q)`). -/
theorem v14_at (x0 x1 : (⟨S2x16x2048x64, .f32⟩ : BufTy).Contents (Elt Ideal)) (b : Fin 2) (h : Fin 16) (q k : Fin 2048) :
    val_main_v14 (F := Ideal) x0 x1 (ix4 b h q k)
      = Ideal.ofBits .f32 0x00000000#32
        + ∑ k' : Fin 2048, Ideal.exp (srow x0 x1 b h q k' - Attn.wholeMax (srow x0 x1 b h q)) := by
  have e1314 : idx_main_v13 (idx_main_v14 (ix4 b h q k)) = ix3 b h q :=
    funext fun a => Fin.ext (by match a with | ⟨0, _⟩ => rfl | ⟨1, _⟩ => rfl | ⟨2, _⟩ => rfl)
  have e12 : ∀ k' : Fin 2048, idx_main_v12 (ix3 b h q) k' = ix4 b h q k' := fun k' =>
    funext fun a => Fin.ext (by match a with | ⟨0, _⟩ => rfl | ⟨1, _⟩ => rfl | ⟨2, _⟩ => rfl | ⟨3, _⟩ => rfl)
  rw [val_main_v14_apply, val_main_v13_apply, e1314, val_main_v12_apply, val_main_cst_3_apply]
  simp only [Ideal.ofBits_def]
  refine congrArg (Ideal.ofBits .f32 0x00000000#32 + ·) (Finset.sum_congr rfl fun k' _ => ?_)
  rw [e12, v11_at]

/-- The last stage of the reference, as one function of the three arguments, is `Attn.attn`. -/
theorem val_eq_attn (x0 x1 x2 : (⟨S2x16x2048x64, .f32⟩ : BufTy).Contents (Elt Ideal)) :
    Cert.ReferenceIdeal.Read.val_main_v16 (F := Ideal) x0 x1 x2 = Attn.attn x0 x1 x2 := by
  funext i
  obtain ⟨b, h, q, d, rfl⟩ : ∃ (b : Fin 2) (h : Fin 16) (q : Fin 2048) (d : Fin 64), i = ix4 b h q d :=
    ⟨i 0, i 1, i 2, i 3, eq_ix4 i⟩
  have el : ∀ k : Fin 2048, lidx_main_v16 (ix4 b h q d) k = ix4 b h q k := fun k =>
    funext fun a => Fin.ext (by match a with | ⟨0, _⟩ => rfl | ⟨1, _⟩ => rfl | ⟨2, _⟩ => rfl | ⟨3, _⟩ => rfl)
  have er : ∀ k : Fin 2048, ridx_main_v16 (ix4 b h q d) k = ix4 b h k d := fun k =>
    funext fun a => Fin.ext (by match a with | ⟨0, _⟩ => rfl | ⟨1, _⟩ => rfl | ⟨2, _⟩ => rfl | ⟨3, _⟩ => rfl)
  rw [Attn.attn_apply, val_main_v16_apply]
  unfold Attn.attnAt Attn.whole
  refine Finset.sum_congr rfl fun k _ => ?_
  rw [el, er, val_main_v15_apply, v11_at, v14_at]
  simp only [Ideal.hostDivf_def]

end Cert.ReferenceIdeal.RefValue

end
-- ==== Proof.Finite.lean ====
/-
  The precondition read: when the printed predicate is all ones, every entry of the three inputs is a real number.
-/
import proofs.«420729_j12979391169218_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Hand

open Idealize.ShloMosaic Cert.Pre_finite_inputs

/-- The word 0x7F800000 (all-ones exponent, zero significand, sign clear) denotes +∞, the top extended real. -/
theorem inf_top : (FloatOps.ofBits (F := Ideal) .f32 0x7F800000#32 : EReal) = ⊤ := by
  show Ideal.ofBits .f32 0x7F800000#32 = ⊤
  simp [Ideal.ofBits, Ideal.ieee]

/-- One entry: if |x| = max x (-x) compares strictly below +∞ then x is a real number. At ⊥ and at ⊤ the
    maximum of x and -x is ⊤, which is not below ⊤; the remaining case is a real. -/
theorem real_of_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  rw [inf_top] at h
  change Ideal.cmp .olt (max x (-x)) ⊤ = 1#1 at h
  induction x using EReal.rec with
  | bot => simp [Ideal.cmp] at h
  | top => simp [Ideal.cmp] at h
  | coe r => exact ⟨r, rfl⟩

/-- Under the precondition every input entry is (the coercion of) a real number. -/
theorem real_of_pre (x0 x1 x2 : FVec Ideal S2x16x2048x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  -- the predicate's one element
  have h0 := congrFun h ValueIdx.ix0
  dsimp only [Cert.Pre_finite_inputs.fn] at h0
  -- the result shape has rank 0, hence exactly one index
  haveI : Subsingleton S_.Idx := ⟨fun a b => funext fun d => d.elim0⟩
  -- a conjunction of one-bit words is 1 exactly when each conjunct is: three reductions, each 1
  obtain ⟨h01, h2⟩ := IntOp.andi_eq_one.1 h0
  obtain ⟨h0', h1⟩ := IntOp.andi_eq_one.1 h01
  -- a reduction by `and` over all axes that is 1 met a 1 at every index: |x i| < +∞ there
  refine ⟨fun i => ?_, fun i => ?_, fun i => ?_⟩
  · exact real_of_lt_inf (x0 i) (Host.reduce_andi_all _ _ _ _ _ h0' i)
  · exact real_of_lt_inf (x1 i) (Host.reduce_andi_all _ _ _ _ _ h1 i)
  · exact real_of_lt_inf (x2 i) (Host.reduce_andi_all _ _ _ _ _ h2 i)

end Cert.Pre_finite_inputs.Hand

end
-- ==== Proof.lean ====
/-
  Flash attention against whole-row softmax attention, over the extended reals.

  The kernel visits each block of 512 query rows at two consecutive grid points, one per block of 1024 keys,
  carrying a running maximum, denominator and numerator between them, and divides at the second; the reference
  forms all 2048 scores of a row, subtracts their maximum, exponentiates, normalises and contracts with the
  values. On finite inputs the two are one function of the three arguments: the scale 1/8 commutes with the finite
  score sums (and 1 / √64 is 1/8), and the softmax weights do not depend on which real number is subtracted before
  exponentiating, so the blockwise rescaling by exp (m − m') recovers the whole-row weights.

  The frames of the two kernel programs are the generated ones; the reference's frame is its generated run with
  the result dropped. The ideal pass rewrote nothing, so there is nothing to preserve. For the value claim the
  kernel's result is read off its frame run (the blocks the odd points write back tile the result array), the
  reference's off its run stage by stage, and the precondition supplies the finiteness the law needs.
-/
import proofs.«420729_j12979391169218_3_alg».proof.Defs
import proofs.«420729_j12979391169218_3_alg».proof.Proof.Gen.Kernel
import proofs.«420729_j12979391169218_3_alg».proof.Proof.Gen.Kernel.Skeleton
import proofs.«420729_j12979391169218_3_alg».proof.Proof.Gen.Kernel.Launch
import proofs.«420729_j12979391169218_3_alg».proof.Proof.Gen.Kernel.Points
import proofs.«420729_j12979391169218_3_alg».proof.Proof.Gen.Kernel.Frame
import proofs.«420729_j12979391169218_3_alg».proof.Proof.Gen.KernelIdeal
import proofs.«420729_j12979391169218_3_alg».proof.Proof.Gen.KernelIdeal.Skeleton
import proofs.«420729_j12979391169218_3_alg».proof.Proof.Gen.KernelIdeal.Launch
import proofs.«420729_j12979391169218_3_alg».proof.Proof.Gen.KernelIdeal.Points
import proofs.«420729_j12979391169218_3_alg».proof.Proof.Gen.KernelIdeal.Frame
import proofs.«420729_j12979391169218_3_alg».proof.Proof.Gen.ReferenceIdeal
import proofs.«420729_j12979391169218_3_alg».proof.Proof.Gen.Pre_finite_inputs
import proofs.«420729_j12979391169218_3_alg».proof.Proof.Gen.ReferenceIdeal.Run
import proofs.«420729_j12979391169218_3_alg».proof.Proof.Gen.ReferenceIdeal.Read
import proofs.«420729_j12979391169218_3_alg».proof.Proof.Final
import proofs.«420729_j12979391169218_3_alg».proof.Proof.RefValue
import proofs.«420729_j12979391169218_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the attention of the kernel's arguments: the kernel by its run read on finite inputs, the
    reference by its run read stage by stage, from arguments that agree. -/
theorem algebraic : Cert.algebraic_KernelIdeal_ReferenceIdeal := by
  intro m ρ m' ρ' hpre hagree
  refine ⟨fun c => Cert.Attn.attn (Cert.KernelIdeal.Hand.A0 m c) (Cert.KernelIdeal.Hand.A1 m c) (Cert.KernelIdeal.Hand.A2 m c),
    Cert.KernelIdeal.Hand.run m ρ (fun c => Cert.Pre_finite_inputs.Hand.real_of_pre _ _ _ (hpre c)), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.val_eq_attn,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
